-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v35) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x2048x128 : Shape := ⟨3, ![8, 2048, 128]⟩
abbrev S128x256 : Shape := ⟨2, ![128, 256]⟩
abbrev S256 : Shape := ⟨1, ![256]⟩
abbrev S256x256 : Shape := ⟨2, ![256, 256]⟩
abbrev S_ : Shape := ⟨0, ![]⟩
abbrev S8x2048x256 : Shape := ⟨3, ![8, 2048, 256]⟩
abbrev S1x1x256 : Shape := ⟨3, ![1, 1, 256]⟩
abbrev S8x2048x2048 : Shape := ⟨3, ![8, 2048, 2048]⟩
abbrev S8x2048 : Shape := ⟨2, ![8, 2048]⟩

class Facts : Prop where
  bcast_S_S8x2048x128 : S_.BroadcastsInDim S8x2048x128 (![] : Fin 0 → Fin S8x2048x128.rank)
  reducesTo_S8x2048x128_S_d0_1_2 : S8x2048x128.ReducesTo [0, 1, 2] S_
  h_S_ : 0 < S_.numel
  bcast_S_S128x256 : S_.BroadcastsInDim S128x256 (![] : Fin 0 → Fin S128x256.rank)
  reducesTo_S128x256_S_d0_1 : S128x256.ReducesTo [0, 1] S_
  bcast_S_S256 : S_.BroadcastsInDim S256 (![] : Fin 0 → Fin S256.rank)
  reducesTo_S256_S_d0 : S256.ReducesTo [0] S_
  bcast_S_S256x256 : S_.BroadcastsInDim S256x256 (![] : Fin 0 → Fin S256x256.rank)
  reducesTo_S256x256_S_d0_1 : S256x256.ReducesTo [0, 1] S_
  bcast_S256_S1x1x256_2 : S256.BroadcastsInDim S1x1x256 (![2] : Fin 1 → Fin S1x1x256.rank)
  bcast_S1x1x256_S8x2048x256_0_1_2 : S1x1x256.BroadcastsInDim S8x2048x256 (![0, 1, 2] : Fin 3 → Fin S8x2048x256.rank)
  bcast_S_S8x2048x256 : S_.BroadcastsInDim S8x2048x256 (![] : Fin 0 → Fin S8x2048x256.rank)
  reducesTo_S8x2048x2048_S8x2048_d2 : S8x2048x2048.ReducesTo [2] S8x2048
  bcast_S_S8x2048 : S_.BroadcastsInDim S8x2048 (![] : Fin 0 → Fin S8x2048.rank)
  reducesTo_S8x2048_S_d0_1 : S8x2048.ReducesTo [0, 1] S_
  dot_S8x2048x128_S128x256_S8x2048x256_2_0_01_1_n_n_wf : DotDims.WF S8x2048x128 S128x256 S8x2048x256 [2] [0] [0, 1] [1] [] []
  dot_S8x2048x256_S256x256_S8x2048x256_2_0_01_1_n_n_wf : DotDims.WF S8x2048x256 S256x256 S8x2048x256 [2] [0] [0, 1] [1] [] []
  dot_S8x2048x256_S8x2048x256_S8x2048x2048_2_2_1_1_0_0_wf : DotDims.WF S8x2048x256 S8x2048x256 S8x2048x2048 [2] [2] [1] [1] [0] [0]

variable [Facts]

def dot_S8x2048x128_S128x256_S8x2048x256_2_0_01_1_n_n : DotDims S8x2048x128 S128x256 S8x2048x256 where
  lhsContracting := [2]
  rhsContracting := [0]
  lhsNonContracting := [0, 1]
  rhsNonContracting := [1]
  lhsBatch := []
  rhsBatch := []
  wf := dot_S8x2048x128_S128x256_S8x2048x256_2_0_01_1_n_n_wf
def dot_S8x2048x256_S256x256_S8x2048x256_2_0_01_1_n_n : DotDims S8x2048x256 S256x256 S8x2048x256 where
  lhsContracting := [2]
  rhsContracting := [0]
  lhsNonContracting := [0, 1]
  rhsNonContracting := [1]
  lhsBatch := []
  rhsBatch := []
  wf := dot_S8x2048x256_S256x256_S8x2048x256_2_0_01_1_n_n_wf
def dot_S8x2048x256_S8x2048x256_S8x2048x2048_2_2_1_1_0_0 : DotDims S8x2048x256 S8x2048x256 S8x2048x2048 where
  lhsContracting := [2]
  rhsContracting := [2]
  lhsNonContracting := [1]
  rhsNonContracting := [1]
  lhsBatch := [0]
  rhsBatch := [0]
  wf := dot_S8x2048x256_S8x2048x256_S8x2048x2048_2_2_1_1_0_0_wf
def fn_part3 {F : FTy → Type} [FloatOps F] (main_arg0 : FVec F S8x2048x128 .f32) (main_arg5 : FVec F S128x256 .f32) (main_arg6 : FVec F S256 .f32) (main_arg7 : FVec F S256x256 .f32) (main_arg8 : FVec F S256 .f32) (main_v43 : IVec S_ 1) (main_v50 : FVec F S8x2048x256 .f32) (main_v52 : FVec F S8x2048x256 .f32) : IVec S_ 1 :=
  let main_v53 : FVec F S8x2048x256 .f32 := addf main_v50 main_v52
  let main_v54 : FVec F S8x2048x256 .f32 := (fun l r => Host.dotGeneral dot_S8x2048x128_S128x256_S8x2048x256_2_0_01_1_n_n none l r) main_arg0 main_arg5
  let main_v55 : FVec F S1x1x256 .f32 := broadcastInDim S1x1x256 ![2] bcast_S256_S1x1x256_2 main_arg6
  let main_v56 : FVec F S8x2048x256 .f32 := broadcastInDim S8x2048x256 ![0, 1, 2] bcast_S1x1x256_S8x2048x256_0_1_2 main_v55
  let main_v57 : FVec F S8x2048x256 .f32 := addf main_v54 main_v56
  let main_cst_17 : FVec F S_ .f32 := constant S_ .f32 0x00000000#32
  let main_v58 : FVec F S8x2048x256 .f32 := broadcastInDim S8x2048x256 ![] bcast_S_S8x2048x256 main_cst_17
  let main_v59 : FVec F S8x2048x256 .f32 := maximumf main_v57 main_v58
  let main_v60 : FVec F S8x2048x256 .f32 := (fun l r => Host.dotGeneral dot_S8x2048x256_S256x256_S8x2048x256_2_0_01_1_n_n none l r) main_v59 main_arg7
  let main_v61 : FVec F S1x1x256 .f32 := broadcastInDim S1x1x256 ![2] bcast_S256_S1x1x256_2 main_arg8
  let main_v62 : FVec F S8x2048x256 .f32 := broadcastInDim S8x2048x256 ![0, 1, 2] bcast_S1x1x256_S8x2048x256_0_1_2 main_v61
  let main_v63 : FVec F S8x2048x256 .f32 := addf main_v60 main_v62
  let main_v64 : FVec F S8x2048x2048 .f32 := (fun l r => Host.dotGeneral dot_S8x2048x256_S8x2048x256_S8x2048x2048_2_2_1_1_0_0 none l r) main_v53 main_v63
  let main_cst_18 : FVec F S_ .f32 := constant S_ .f32 0xFF800000#32
  let main_v65 : FVec F S8x2048 .f32 := (fun x v => Host.reduce FloatOps.maximumf x v reducesTo_S8x2048x2048_S8x2048_d2 h_S_) main_v64 main_cst_18
  let main_cst_19 : FVec F S_ .f32 := constant S_ .f32 0x00000000#32
  let main_v66 : FVec F S8x2048 .f32 := broadcastInDim S8x2048 ![] bcast_S_S8x2048 main_cst_19
  let main_v67 : IVec S8x2048 1 := cmpf .une main_v65 main_v66
  let main_c_20 : IVec S_ 1 := constantI S_ 1 1#1
  let main_v68 : IVec S_ 1 := (fun x v => Host.reduce IntOp.andi x v reducesTo_S8x2048_S_d0_1 h_S_) main_v67 main_c_20
  let main_v69 : IVec S_ 1 := andi main_v43 main_v68
  main_v69

def fn_part2 {F : FTy → Type} [FloatOps F] (main_arg0 : FVec F S8x2048x128 .f32) (main_arg1 : FVec F S128x256 .f32) (main_arg2 : FVec F S256 .f32) (main_arg3 : FVec F S256x256 .f32) (main_arg4 : FVec F S256 .f32) (main_arg5 : FVec F S128x256 .f32) (main_arg6 : FVec F S256 .f32) (main_arg7 : FVec F S256x256 .f32) (main_arg8 : FVec F S256 .f32) (main_v33 : IVec S_ 1) : IVec S_ 1 :=
  let main_v34 : FVec F S256x256 .f32 := Host.absf main_arg7
  let main_cst_12 : FVec F S_ .f32 := constant S_ .f32 0x7F800000#32
  let main_v35 : FVec F S256x256 .f32 := broadcastInDim S256x256 ![] bcast_S_S256x256 main_cst_12
  let main_v36 : IVec S256x256 1 := cmpf .olt main_v34 main_v35
  let main_c_13 : IVec S_ 1 := constantI S_ 1 1#1
  let main_v37 : IVec S_ 1 := (fun x v => Host.reduce IntOp.andi x v reducesTo_S256x256_S_d0_1 h_S_) main_v36 main_c_13
  let main_v38 : IVec S_ 1 := andi main_v33 main_v37
  let main_v39 : FVec F S256 .f32 := Host.absf main_arg8
  let main_cst_14 : FVec F S_ .f32 := constant S_ .f32 0x7F800000#32
  let main_v40 : FVec F S256 .f32 := broadcastInDim S256 ![] bcast_S_S256 main_cst_14
  let main_v41 : IVec S256 1 := cmpf .olt main_v39 main_v40
  let main_c_15 : IVec S_ 1 := constantI S_ 1 1#1
  let main_v42 : IVec S_ 1 := (fun x v => Host.reduce IntOp.andi x v reducesTo_S256_S_d0 h_S_) main_v41 main_c_15
  let main_v43 : IVec S_ 1 := andi main_v38 main_v42
  let main_v44 : FVec F S8x2048x256 .f32 := (fun l r => Host.dotGeneral dot_S8x2048x128_S128x256_S8x2048x256_2_0_01_1_n_n none l r) main_arg0 main_arg1
  let main_v45 : FVec F S1x1x256 .f32 := broadcastInDim S1x1x256 ![2] bcast_S256_S1x1x256_2 main_arg2
  let main_v46 : FVec F S8x2048x256 .f32 := broadcastInDim S8x2048x256 ![0, 1, 2] bcast_S1x1x256_S8x2048x256_0_1_2 main_v45
  let main_v47 : FVec F S8x2048x256 .f32 := addf main_v44 main_v46
  let main_cst_16 : FVec F S_ .f32 := constant S_ .f32 0x00000000#32
  let main_v48 : FVec F S8x2048x256 .f32 := broadcastInDim S8x2048x256 ![] bcast_S_S8x2048x256 main_cst_16
  let main_v49 : FVec F S8x2048x256 .f32 := maximumf main_v47 main_v48
  let main_v50 : FVec F S8x2048x256 .f32 := (fun l r => Host.dotGeneral dot_S8x2048x256_S256x256_S8x2048x256_2_0_01_1_n_n none l r) main_v49 main_arg3
  let main_v51 : FVec F S1x1x256 .f32 := broadcastInDim S1x1x256 ![2] bcast_S256_S1x1x256_2 main_arg4
  let main_v52 : FVec F S8x2048x256 .f32 := broadcastInDim S8x2048x256 ![0, 1, 2] bcast_S1x1x256_S8x2048x256_0_1_2 main_v51
  fn_part3 (F := F) main_arg0 main_arg5 main_arg6 main_arg7 main_arg8 main_v43 main_v50 main_v52

def fn_part1 {F : FTy → Type} [FloatOps F] (main_arg0 : FVec F S8x2048x128 .f32) (main_arg1 : FVec F S128x256 .f32) (main_arg2 : FVec F S256 .f32) (main_arg3 : FVec F S256x256 .f32) (main_arg4 : FVec F S256 .f32) (main_arg5 : FVec F S128x256 .f32) (main_arg6 : FVec F S256 .f32) (main_arg7 : FVec F S256x256 .f32) (main_arg8 : FVec F S256 .f32) (main_v13 : IVec S_ 1) (main_v16 : IVec S256x256 1) : IVec S_ 1 :=
  let main_c_5 : IVec S_ 1 := constantI S_ 1 1#1
  let main_v17 : IVec S_ 1 := (fun x v => Host.reduce IntOp.andi x v reducesTo_S256x256_S_d0_1 h_S_) main_v16 main_c_5
  let main_v18 : IVec S_ 1 := andi main_v13 main_v17
  let main_v19 : FVec F S256 .f32 := Host.absf main_arg4
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  let main_v24 : FVec F S128x256 .f32 := Host.absf main_arg5
  let main_cst_8 : FVec F S_ .f32 := constant S_ .f32 0x7F800000#32
  let main_v25 : FVec F S128x256 .f32 := broadcastInDim S128x256 ![] bcast_S_S128x256 main_cst_8
  let main_v26 : IVec S128x256 1 := cmpf .olt main_v24 main_v25
  let main_c_9 : IVec S_ 1 := constantI S_ 1 1#1
  let main_v27 : IVec S_ 1 := (fun x v => Host.reduce IntOp.andi x v reducesTo_S128x256_S_d0_1 h_S_) main_v26 main_c_9
  let main_v28 : IVec S_ 1 := andi main_v23 main_v27
  let main_v29 : FVec F S256 .f32 := Host.absf main_arg6
  let main_cst_10 : FVec F S_ .f32 := constant S_ .f32 0x7F800000#32
  let main_v30 : FVec F S256 .f32 := broadcastInDim S256 ![] bcast_S_S256 main_cst_10
  let main_v31 : IVec S256 1 := cmpf .olt main_v29 main_v30
  let main_c_11 : IVec S_ 1 := constantI S_ 1 1#1
  let main_v32 : IVec S_ 1 := (fun x v => Host.reduce IntOp.andi x v reducesTo_S256_S_d0 h_S_) main_v31 main_c_11
  let main_v33 : IVec S_ 1 := andi main_v28 main_v32
  fn_part2 (F := F) main_arg0 main_arg1 main_arg2 main_arg3 main_arg4 main_arg5 main_arg6 main_arg7 main_arg8 main_v33

def fn {F : FTy → Type} [FloatOps F] (main_arg0 : FVec F S8x2048x128 .f32) (main_arg1 : FVec F S128x256 .f32) (main_arg2 : FVec F S256 .f32) (main_arg3 : FVec F S256x256 .f32) (main_arg4 : FVec F S256 .f32) (main_arg5 : FVec F S128x256 .f32) (main_arg6 : FVec F S256 .f32) (main_arg7 : FVec F S256x256 .f32) (main_arg8 : FVec F S256 .f32) : IVec S_ 1 :=
  let main_v0 : FVec F S8x2048x128 .f32 := Host.absf main_arg0
  let main_cst : FVec F S_ .f32 := constant S_ .f32 0x7F800000#32
  let main_v1 : FVec F S8x2048x128 .f32 := broadcastInDim S8x2048x128 ![] bcast_S_S8x2048x128 main_cst
  let main_v2 : IVec S8x2048x128 1 := cmpf .olt main_v0 main_v1
  let main_c : IVec S_ 1 := constantI S_ 1 1#1
  let main_v3 : IVec S_ 1 := (fun x v => Host.reduce IntOp.andi x v reducesTo_S8x2048x128_S_d0_1_2 h_S_) main_v2 main_c
  let main_v4 : FVec F S128x256 .f32 := Host.absf main_arg1
  let main_cst_0 : FVec F S_ .f32 := constant S_ .f32 0x7F800000#32
  let main_v5 : FVec F S128x256 .f32 := broadcastInDim S128x256 ![] bcast_S_S128x256 main_cst_0
  let main_v6 : IVec S128x256 1 := cmpf .olt main_v4 main_v5
  let main_c_1 : IVec S_ 1 := constantI S_ 1 1#1
  let main_v7 : IVec S_ 1 := (fun x v => Host.reduce IntOp.andi x v reducesTo_S128x256_S_d0_1 h_S_) main_v6 main_c_1
  let main_v8 : IVec S_ 1 := andi main_v3 main_v7
  let main_v9 : FVec F S256 .f32 := Host.absf main_arg2
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S256x256 .f32 := Host.absf main_arg3
  let main_cst_4 : FVec F S_ .f32 := constant S_ .f32 0x7F800000#32
  let main_v15 : FVec F S256x256 .f32 := broadcastInDim S256x256 ![] bcast_S_S256x256 main_cst_4
  let main_v16 : IVec S256x256 1 := cmpf .olt main_v14 main_v15
  fn_part1 (F := F) main_arg0 main_arg1 main_arg2 main_arg3 main_arg4 main_arg5 main_arg6 main_arg7 main_arg8 main_v13 main_v16
-- ==== Kernel.lean ====
abbrev S8x2048x128 : Shape := ⟨3, ![8, 2048, 128]⟩
abbrev S128x256 : Shape := ⟨2, ![128, 256]⟩
abbrev S256 : Shape := ⟨1, ![256]⟩
abbrev S256x256 : Shape := ⟨2, ![256, 256]⟩
abbrev S8x2048x2048 : Shape := ⟨3, ![8, 2048, 2048]⟩
abbrev S1x2048x128 : Shape := ⟨3, ![1, 2048, 128]⟩
abbrev S1x512x2048 : Shape := ⟨3, ![1, 512, 2048]⟩
abbrev S2048x256 : Shape := ⟨2, ![2048, 256]⟩
abbrev S2048x128 : Shape := ⟨2, ![2048, 128]⟩
abbrev S1x256 : Shape := ⟨2, ![1, 256]⟩
abbrev S1x512x128 : Shape := ⟨3, ![1, 512, 128]⟩
abbrev S512x128 : Shape := ⟨2, ![512, 128]⟩
abbrev S512x256 : Shape := ⟨2, ![512, 256]⟩
abbrev S512x2048 : Shape := ⟨2, ![512, 2048]⟩
abbrev S512 : Shape := ⟨1, ![512]⟩
abbrev S512x1 : Shape := ⟨2, ![512, 1]⟩

abbrev nBuf : Space → Nat
  | .hbm => 10
  | .vmem => 13
  | .smem => 0
  | _ => 0

abbrev bufTy : (tb : Table) → Fin (tcTables nBuf tb) → BufTy
  | .hbm, ⟨0, _⟩ => ⟨S8x2048x128, .f32⟩
  | .hbm, ⟨1, _⟩ => ⟨S128x256, .f32⟩
  | .hbm, ⟨2, _⟩ => ⟨S256, .f32⟩
  | .hbm, ⟨3, _⟩ => ⟨S256x256, .f32⟩
  | .hbm, ⟨4, _⟩ => ⟨S256, .f32⟩
  | .hbm, ⟨5, _⟩ => ⟨S128x256, .f32⟩
  | .hbm, ⟨6, _⟩ => ⟨S256, .f32⟩
  | .hbm, ⟨7, _⟩ => ⟨S256x256, .f32⟩
  | .hbm, ⟨8, _⟩ => ⟨S256, .f32⟩
  | .hbm, ⟨9, _⟩ => ⟨S8x2048x2048, .f32⟩
  | .local _ .vmem, ⟨0, _⟩ => ⟨S1x2048x128, .f32⟩
  | .local _ .vmem, ⟨1, _⟩ => ⟨S1x2048x128, .f32⟩
  | .local _ .vmem, ⟨2, _⟩ => ⟨S128x256, .f32⟩
  | .local _ .vmem, ⟨3, _⟩ => ⟨S256, .f32⟩
  | .local _ .vmem, ⟨4, _⟩ => ⟨S256x256, .f32⟩
  | .local _ .vmem, ⟨5, _⟩ => ⟨S256, .f32⟩
  | .local _ .vmem, ⟨6, _⟩ => ⟨S128x256, .f32⟩
  | .local _ .vmem, ⟨7, _⟩ => ⟨S256, .f32⟩
  | .local _ .vmem, ⟨8, _⟩ => ⟨S256x256, .f32⟩
  | .local _ .vmem, ⟨9, _⟩ => ⟨S256, .f32⟩
  | .local _ .vmem, ⟨10, _⟩ => ⟨S1x512x2048, .f32⟩
  | .local _ .vmem, ⟨11, _⟩ => ⟨S1x512x2048, .f32⟩
  | .local _ .vmem, ⟨12, _⟩ => ⟨S2048x256, .bf16⟩
  | _, _ => ⟨S8x2048x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg9_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem9_1 : DmaSem sig := 11

abbrev nD : Nat := 1
abbrev τ : Topo := Topo.v7x

variable {F : FTy → Type} [FloatOps F]

abbrev grid0 : Pipeline.Grid := ⟨2, ![8, 4], ![false, false]⟩

def k0_mult1 (i : grid0.Coords) : BitVec 32 :=
  let arg1 : BitVec 32 := BitVec.ofNat 32 (i 1).val
  let c512_i32 : BitVec 32 := 512#32
  let v3 : BitVec 32 := Scalar.muli arg1 c512_i32
  v3
def k0_off1 (i : grid0.Coords) : Fin 3 → Nat :=
  let c0 : Index := 0#32
  let arg1 : BitVec 32 := BitVec.ofNat 32 (i 1).val
  let c512_i32 : BitVec 32 := 512#32
  let v3 : BitVec 32 := Scalar.muli arg1 c512_i32
  let v4 : BitVec 32 := v3
  let v5 : Index := Scalar.indexCast v4
  let c0_1 : Index := 0#32
  ![0, v5.toNat, 0]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x2048x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S128x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S256x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S128x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S256x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S1x512x2048 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

class Facts₀ : Prop where
  inb_S1x2048x128_S1x2048x128_0_0_0 : ∀ a, (![0, 0, 0] : Fin 3 → Nat) a + S1x2048x128.size a ≤ S1x2048x128.size a
  h_S1x2048x128 : 0 < S1x2048x128.numel
  shapeCasts_S1x2048x128_S2048x128 : S1x2048x128.ShapeCasts S2048x128
  bitsLt_bf16_f32 : FTy.bits .bf16 < FTy.bits .f32
  inb_S128x256_S128x256_0_0 : ∀ a, (![0, 0] : Fin 2 → Nat) a + S128x256.size a ≤ S128x256.size a
  h_S128x256 : 0 < S128x256.numel
  inb_S256_S256_0 : ∀ a, (![0] : Fin 1 → Nat) a + S256.size a ≤ S256.size a
  h_S256 : 0 < S256.numel
  shapeCasts_S256_S1x256 : S256.ShapeCasts S1x256
  broadcasts_S1x256_S2048x256 : S1x256.Broadcasts S2048x256
  inb_S256x256_S256x256_0_0 : ∀ a, (![0, 0] : Fin 2 → Nat) a + S256x256.size a ≤ S256x256.size a
  h_S256x256 : 0 < S256x256.numel
  inb_S2048x256_S2048x256_0_0 : ∀ a, (![0, 0] : Fin 2 → Nat) a + S2048x256.size a ≤ S2048x256.size a
  h_S2048x256 : 0 < S2048x256.numel
  shapeCasts_S2048x256_S2048x256 : S2048x256.ShapeCasts S2048x256
  packedbf16_S2048x256_S2048x256_0_0 : (Rect.unit (s := S2048x256) ![0, 0] S2048x256.size inb_S2048x256_S2048x256_0_0).PackedRows (EltTy.packing .bf16)
  h_S1x512x128 : 0 < S1x512x128.numel
  shapeCasts_S1x512x128_S512x128 : S1x512x128.ShapeCasts S512x128
  broadcasts_S1x256_S512x256 : S1x256.Broadcasts S512x256
  reduces_S512x2048_S512 : S512x2048.Reduces [1] S512
  shapeCasts_S512_S512x1 : S512.ShapeCasts S512x1
  broadcasts_S512x1_S512x2048 : S512x1.Broadcasts S512x2048
  inb_S1x512x2048_S1x512x2048_0_0_0 : ∀ a, (![0, 0, 0] : Fin 3 → Nat) a + S1x512x2048.size a ≤ S1x512x2048.size a
  h_S1x512x2048 : 0 < S1x512x2048.numel
  shapeCasts_S1x512x2048_S512x2048 : S1x512x2048.ShapeCasts S512x2048
  shapeCasts_S512x2048_S1x512x2048 : S512x2048.ShapeCasts S1x512x2048
  dot_S2048x128_S128x256_S2048x256_1_0_0_1_n_n_wf : DotDims.WF S2048x128 S128x256 S2048x256 [1] [0] [0] [1] [] []
  dot_S2048x256_S256x256_S2048x256_1_0_0_1_n_n_wf : DotDims.WF S2048x256 S256x256 S2048x256 [1] [0] [0] [1] [] []
  dot_S512x128_S128x256_S512x256_1_0_0_1_n_n_wf : DotDims.WF S512x128 S128x256 S512x256 [1] [0] [0] [1] [] []
  dot_S512x256_S256x256_S512x256_1_0_0_1_n_n_wf : DotDims.WF S512x256 S256x256 S512x256 [1] [0] [0] [1] [] []
  dot_S512x256_S2048x256_S512x2048_1_1_0_0_n_n_wf : DotDims.WF S512x256 S2048x256 S512x2048 [1] [1] [0] [0] [] []
  hrank0 : 0 < grid0.rank
  k0_mult1_dvd : ∀ i : grid0.Coords, 512 ∣ (k0_mult1 i).toNat
  k0_off1_inb : ∀ i : grid0.Coords, ∀ a, (k0_off1 i) a + S1x512x128.size a ≤ S1x2048x128.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x2048x128.size a ≤ S8x2048x128.size a
  hwx0_0 : ∀ i : grid0.Coords, EltTy.bits .f32 = 32 ∨ (Rect.block (s := S8x2048x128) S1x2048x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x256.size a ≤ S128x256.size a
  hwx0_1 : ∀ i : grid0.Coords, EltTy.bits .f32 = 32 ∨ (Rect.block (s := S128x256) S128x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256.size a ≤ S256.size a
  hwx0_2 : ∀ i : grid0.Coords, EltTy.bits .f32 = 32 ∨ (Rect.block (s := S256) S256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x256.size a ≤ S256x256.size a
  hwx0_3 : ∀ i : grid0.Coords, EltTy.bits .f32 = 32 ∨ (Rect.block (s := S256x256) S256x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S256.size a ≤ S256.size a
  hwx0_4 : ∀ i : grid0.Coords, EltTy.bits .f32 = 32 ∨ (Rect.block (s := S256) S256.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x256.size a ≤ S128x256.size a
  hwx0_5 : ∀ i : grid0.Coords, EltTy.bits .f32 = 32 ∨ (Rect.block (s := S128x256) S128x256.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S256.size a ≤ S256.size a
  hwx0_6 : ∀ i : grid0.Coords, EltTy.bits .f32 = 32 ∨ (Rect.block (s := S256) S256.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S256x256.size a ≤ S256x256.size a
  hwx0_7 : ∀ i : grid0.Coords, EltTy.bits .f32 = 32 ∨ (Rect.block (s := S256x256) S256x256.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S256.size a ≤ S256.size a
  hwx0_8 : ∀ i : grid0.Coords, EltTy.bits .f32 = 32 ∨ (Rect.block (s := S256) S256.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S1x512x2048.size a ≤ S8x2048x2048.size a
  hwx0_9 : ∀ i : grid0.Coords, EltTy.bits .f32 = 32 ∨ (Rect.block (s := S8x2048x2048) S1x512x2048.size (cc0_transform_9 i) (hinb0_9 i)).WholeWords (EltTy.packing .f32)

variable [Facts₀]

def dot_S2048x128_S128x256_S2048x256_1_0_0_1_n_n : DotDims S2048x128 S128x256 S2048x256 where
  lhsContracting := [1]
  rhsContracting := [0]
  lhsNonContracting := [0]
  rhsNonContracting := [1]
  lhsBatch := []
  rhsBatch := []
  wf := dot_S2048x128_S128x256_S2048x256_1_0_0_1_n_n_wf
def dot_S2048x256_S256x256_S2048x256_1_0_0_1_n_n : DotDims S2048x256 S256x256 S2048x256 where
  lhsContracting := [1]
  rhsContracting := [0]
  lhsNonContracting := [0]
  rhsNonContracting := [1]
  lhsBatch := []
  rhsBatch := []
  wf := dot_S2048x256_S256x256_S2048x256_1_0_0_1_n_n_wf
def dot_S512x128_S128x256_S512x256_1_0_0_1_n_n : DotDims S512x128 S128x256 S512x256 where
  lhsContracting := [1]
  rhsContracting := [0]
  lhsNonContracting := [0]
  rhsNonContracting := [1]
  lhsBatch := []
  rhsBatch := []
  wf := dot_S512x128_S128x256_S512x256_1_0_0_1_n_n_wf
def dot_S512x256_S256x256_S512x256_1_0_0_1_n_n : DotDims S512x256 S256x256 S512x256 where
  lhsContracting := [1]
  rhsContracting := [0]
  lhsNonContracting := [0]
  rhsNonContracting := [1]
  lhsBatch := []
  rhsBatch := []
  wf := dot_S512x256_S256x256_S512x256_1_0_0_1_n_n_wf
def dot_S512x256_S2048x256_S512x2048_1_1_0_0_n_n : DotDims S512x256 S2048x256 S512x2048 where
  lhsContracting := [1]
  rhsContracting := [1]
  lhsNonContracting := [0]
  rhsNonContracting := [0]
  lhsBatch := []
  rhsBatch := []
  wf := dot_S512x256_S2048x256_S512x2048_1_1_0_0_n_n_wf

abbrev win0_0 : Pipeline.Window sig grid0 :=
  Pipeline.Window.ofSpec (Memref.whole main_arg0) S1x2048x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S128x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S256x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S128x256.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S256.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg7) S256x256.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg8) S256.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v0) S1x512x2048.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

class Facts : Prop extends Facts₀ where

variable [Facts]
-- ==== ReferenceIdeal.lean ====
abbrev S8x2048x128 : Shape := ⟨3, ![8, 2048, 128]⟩
abbrev S128x256 : Shape := ⟨2, ![128, 256]⟩
abbrev S256 : Shape := ⟨1, ![256]⟩
abbrev S256x256 : Shape := ⟨2, ![256, 256]⟩
abbrev S8x2048x256 : Shape := ⟨3, ![8, 2048, 256]⟩
abbrev S1x1x256 : Shape := ⟨3, ![1, 1, 256]⟩
abbrev S_ : Shape := ⟨0, ![]⟩
abbrev S8x2048x2048 : Shape := ⟨3, ![8, 2048, 2048]⟩
abbrev S8x2048 : Shape := ⟨2, ![8, 2048]⟩
abbrev S8x2048x1 : Shape := ⟨3, ![8, 2048, 1]⟩

abbrev nBuf : Space → Nat
  | .hbm => 54
  | .vmem => 0
  | .smem => 0
  | _ => 0

abbrev bufTy : (tb : Table) → Fin (tcTables nBuf tb) → BufTy
  | .hbm, ⟨0, _⟩ => ⟨S8x2048x128, .f32⟩
  | .hbm, ⟨1, _⟩ => ⟨S128x256, .f32⟩
  | .hbm, ⟨2, _⟩ => ⟨S256, .f32⟩
  | .hbm, ⟨3, _⟩ => ⟨S256x256, .f32⟩
  | .hbm, ⟨4, _⟩ => ⟨S256, .f32⟩
  | .hbm, ⟨5, _⟩ => ⟨S128x256, .f32⟩
  | .hbm, ⟨6, _⟩ => ⟨S256, .f32⟩
  | .hbm, ⟨7, _⟩ => ⟨S256x256, .f32⟩
  | .hbm, ⟨8, _⟩ => ⟨S256, .f32⟩
  | .hbm, ⟨9, _⟩ => ⟨S8x2048x256, .f32⟩
  | .hbm, ⟨10, _⟩ => ⟨S1x1x256, .f32⟩
  | .hbm, ⟨11, _⟩ => ⟨S8x2048x256, .f32⟩
  | .hbm, ⟨12, _⟩ => ⟨S8x2048x256, .f32⟩
  | .hbm, ⟨13, _⟩ => ⟨S_, .f32⟩
  | .hbm, ⟨14, _⟩ => ⟨S8x2048x256, .f32⟩
  | .hbm, ⟨15, _⟩ => ⟨S8x2048x256, .f32⟩
  | .hbm, ⟨16, _⟩ => ⟨S8x2048x256, .f32⟩
  | .hbm, ⟨17, _⟩ => ⟨S1x1x256, .f32⟩
  | .hbm, ⟨18, _⟩ => ⟨S8x2048x256, .f32⟩
  | .hbm, ⟨19, _⟩ => ⟨S8x2048x256, .f32⟩
  | .hbm, ⟨20, _⟩ => ⟨S8x2048x256, .f32⟩
  | .hbm, ⟨21, _⟩ => ⟨S1x1x256, .f32⟩
  | .hbm, ⟨22, _⟩ => ⟨S8x2048x256, .f32⟩
  | .hbm, ⟨23, _⟩ => ⟨S8x2048x256, .f32⟩
  | .hbm, ⟨24, _⟩ => ⟨S_, .f32⟩
  | .hbm, ⟨25, _⟩ => ⟨S8x2048x256, .f32⟩
  | .hbm, ⟨26, _⟩ => ⟨S8x2048x256, .f32⟩
  | .hbm, ⟨27, _⟩ => ⟨S8x2048x256, .f32⟩
  | .hbm, ⟨28, _⟩ => ⟨S1x1x256, .f32⟩
  | .hbm, ⟨29, _⟩ => ⟨S8x2048x256, .f32⟩
  | .hbm, ⟨30, _⟩ => ⟨S8x2048x256, .f32⟩
  | .hbm, ⟨31, _⟩ => ⟨S8x2048x2048, .f32⟩
  | .hbm, ⟨32, _⟩ => ⟨S_, .f32⟩
  | .hbm, ⟨33, _⟩ => ⟨S8x2048, .f32⟩
  | .hbm, ⟨34, _⟩ => ⟨S8x2048x1, .f32⟩
  | .hbm, ⟨35, _⟩ => ⟨S_, .f32⟩
  | .hbm, ⟨36, _⟩ => ⟨S8x2048x2048, .f32⟩
  | .hbm, ⟨37, _⟩ => ⟨S8x2048x2048, .f32⟩
  | .hbm, ⟨38, _⟩ => ⟨S8x2048x2048, .f32⟩
  | .hbm, ⟨39, _⟩ => ⟨S8x2048x2048, .f32⟩
  | .hbm, ⟨40, _⟩ => ⟨S_, .f32⟩
  | .hbm, ⟨41, _⟩ => ⟨S8x2048, .f32⟩
  | .hbm, ⟨42, _⟩ => ⟨S_, .f32⟩
  | .hbm, ⟨43, _⟩ => ⟨S8x2048, .f32⟩
  | .hbm, ⟨44, _⟩ => ⟨S8x2048, .f32⟩
  | .hbm, ⟨45, _⟩ => ⟨S8x2048x1, .f32⟩
  | .hbm, ⟨46, _⟩ => ⟨S8x2048x2048, .f32⟩
  | .hbm, ⟨47, _⟩ => ⟨S8x2048x2048, .f32⟩
  | .hbm, ⟨48, _⟩ => ⟨S8x2048x2048, .f32⟩
  | .hbm, ⟨49, _⟩ => ⟨S_, .f32⟩
  | .hbm, ⟨50, _⟩ => ⟨S8x2048, .f32⟩
  | .hbm, ⟨51, _⟩ => ⟨S8x2048x1, .f32⟩
  | .hbm, ⟨52, _⟩ => ⟨S8x2048x2048, .f32⟩
  | .hbm, ⟨53, _⟩ => ⟨S8x2048x2048, .f32⟩
  | _, _ => ⟨S8x2048x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_call0_cst : Ref sig .tc := ⟨.hbm, 13, rfl⟩
abbrev main_call0_v0 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_call1_cst : Ref sig .tc := ⟨.hbm, 24, rfl⟩
abbrev main_call1_v0 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_cst : Ref sig .tc := ⟨.hbm, 32, rfl⟩
abbrev main_v19 : Ref sig .tc := ⟨.hbm, 33, rfl⟩
abbrev main_v20 : Ref sig .tc := ⟨.hbm, 34, rfl⟩
abbrev main_cst_0 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_cst_1 : Ref sig .tc := ⟨.hbm, 40, rfl⟩
abbrev main_v25 : Ref sig .tc := ⟨.hbm, 41, rfl⟩
abbrev main_cst_2 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_cst_3 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩

abbrev nD : Nat := 1
abbrev τ : Topo := Topo.v7x

variable {F : FTy → Type} [FloatOps F]

class Facts₀ : Prop where
  bcast_S256_S1x1x256_2 : S256.BroadcastsInDim S1x1x256 (![2] : Fin 1 → Fin S1x1x256.rank)
  bcast_S1x1x256_S8x2048x256_0_1_2 : S1x1x256.BroadcastsInDim S8x2048x256 (![0, 1, 2] : Fin 3 → Fin S8x2048x256.rank)
  bcast_S_S8x2048x256 : S_.BroadcastsInDim S8x2048x256 (![] : Fin 0 → Fin S8x2048x256.rank)
  reducesTo_S8x2048x2048_S8x2048_d2 : S8x2048x2048.ReducesTo [2] S8x2048
  h_S_ : 0 < S_.numel
  bcast_S8x2048_S8x2048x1_0_1 : S8x2048.BroadcastsInDim S8x2048x1 (![0, 1] : Fin 2 → Fin S8x2048x1.rank)
  bcast_S_S8x2048x2048 : S_.BroadcastsInDim S8x2048x2048 (![] : Fin 0 → Fin S8x2048x2048.rank)
  bcast_S8x2048x1_S8x2048x2048_0_1_2 : S8x2048x1.BroadcastsInDim S8x2048x2048 (![0, 1, 2] : Fin 3 → Fin S8x2048x2048.rank)
  bcast_S_S8x2048 : S_.BroadcastsInDim S8x2048 (![] : Fin 0 → Fin S8x2048.rank)
  dot_S8x2048x128_S128x256_S8x2048x256_2_0_01_1_n_n_wf : DotDims.WF S8x2048x128 S128x256 S8x2048x256 [2] [0] [0, 1] [1] [] []
  dot_S8x2048x256_S256x256_S8x2048x256_2_0_01_1_n_n_wf : DotDims.WF S8x2048x256 S256x256 S8x2048x256 [2] [0] [0, 1] [1] [] []
  dot_S8x2048x256_S8x2048x256_S8x2048x2048_2_2_1_1_0_0_wf : DotDims.WF S8x2048x256 S8x2048x256 S8x2048x2048 [2] [2] [1] [1] [0] [0]

variable [Facts₀]

def dot_S8x2048x128_S128x256_S8x2048x256_2_0_01_1_n_n : DotDims S8x2048x128 S128x256 S8x2048x256 where
  lhsContracting := [2]
  rhsContracting := [0]
  lhsNonContracting := [0, 1]
  rhsNonContracting := [1]
  lhsBatch := []
  rhsBatch := []
  wf := dot_S8x2048x128_S128x256_S8x2048x256_2_0_01_1_n_n_wf
def dot_S8x2048x256_S256x256_S8x2048x256_2_0_01_1_n_n : DotDims S8x2048x256 S256x256 S8x2048x256 where
  lhsContracting := [2]
  rhsContracting := [0]
  lhsNonContracting := [0, 1]
  rhsNonContracting := [1]
  lhsBatch := []
  rhsBatch := []
  wf := dot_S8x2048x256_S256x256_S8x2048x256_2_0_01_1_n_n_wf
def dot_S8x2048x256_S8x2048x256_S8x2048x2048_2_2_1_1_0_0 : DotDims S8x2048x256 S8x2048x256 S8x2048x2048 where
  lhsContracting := [2]
  rhsContracting := [2]
  lhsNonContracting := [1]
  rhsNonContracting := [1]
  lhsBatch := [0]
  rhsBatch := [0]
  wf := dot_S8x2048x256_S8x2048x256_S8x2048x2048_2_2_1_1_0_0_wf

class Facts : Prop extends Facts₀ where

variable [Facts]
-- ==== Proof.LibRealVariance.lean ====
/-
  The calculus of "this extended real is a real number", and the variance law.

  A float is read as an extended real; the sum, difference and product of two extended reals that
  are real numbers are the real sum, difference and product, and a quotient by a nonzero real is the
  real quotient. So a column of real numbers has a real mean, and its variance computed as
  E[a²] − E[a]² equals the variance computed as E[(a − E a)²]: the identity is the textbook one in ℝ,
  carried back along the embedding ℝ → [-∞, +∞]. (At an infinity the two differ; that is why every
  entry is assumed real.)
-/
import Idealize.ShloMosaic.PureOps.Ideal
import Idealize.ShloMosaic.PureOps.Ideal.Laws
import Mathlib.Data.EReal.Basic
import Mathlib.Data.EReal.Operations
import Mathlib.Data.EReal.Inv
import Mathlib.Algebra.BigOperators.Group.Finset.Basic
import Mathlib.Algebra.BigOperators.Group.Finset.Sigma
import Mathlib.Algebra.Order.BigOperators.Group.Finset
import Mathlib.Logic.Equiv.Fin.Basic
import Mathlib.Tactic.FieldSimp
import Mathlib.Tactic.Ring
import Mathlib.Tactic.NormNum

noncomputable section

namespace Cert.Alg

open Idealize.ShloMosaic
open scoped BigOperators

/-- An extended real that is a real number. -/
def IsReal (x : EReal) : Prop := ∃ r : ℝ, x = (r : EReal)

namespace IsReal

/-- A real number, embedded, is a real number. -/
theorem coe (r : ℝ) : IsReal (r : EReal) := ⟨r, rfl⟩

theorem zero : IsReal 0 := ⟨0, rfl⟩

theorem one : IsReal 1 := ⟨1, rfl⟩

/-- The sum of two reals is the real sum. -/
theorem add {x y : EReal} (hx : IsReal x) (hy : IsReal y) : IsReal (x + y) := by
  obtain ⟨a, rfl⟩ := hx
  obtain ⟨b, rfl⟩ := hy
  exact ⟨a + b, (EReal.coe_add a b).symm⟩

/-- The negation of a real is the real negation. -/
theorem neg {x : EReal} (hx : IsReal x) : IsReal (-x) := by
  obtain ⟨a, rfl⟩ := hx
  exact ⟨-a, (EReal.coe_neg a).symm⟩

/-- The difference of two reals is the real difference. -/
theorem sub {x y : EReal} (hx : IsReal x) (hy : IsReal y) : IsReal (x - y) := by
  obtain ⟨a, rfl⟩ := hx
  obtain ⟨b, rfl⟩ := hy
  exact ⟨a - b, (EReal.coe_sub a b).symm⟩

/-- The product of two reals is the real product. -/
theorem mul {x y : EReal} (hx : IsReal x) (hy : IsReal y) : IsReal (x * y) := by
  obtain ⟨a, rfl⟩ := hx
  obtain ⟨b, rfl⟩ := hy
  exact ⟨a * b, (EReal.coe_mul a b).symm⟩

/-- The greater of two reals is one of them. -/
theorem max {x y : EReal} (hx : IsReal x) (hy : IsReal y) : IsReal (max x y) := by
  rcases max_choice x y with h | h <;> rw [h] <;> assumption

/-- The lesser of two reals is one of them. -/
theorem min {x y : EReal} (hx : IsReal x) (hy : IsReal y) : IsReal (min x y) := by
  rcases min_choice x y with h | h <;> rw [h] <;> assumption

/-- A finite sum of reals is a real: by induction on the index set. -/
theorem finset_sum {ι : Type*} (s : Finset ι) (a : ι → EReal) (h : ∀ i ∈ s, IsReal (a i)) :
    IsReal (∑ i ∈ s, a i) := by
  classical
  induction s using Finset.induction_on with
  | empty => simpa using zero
  | insert j s hj ih =>
    rw [Finset.sum_insert hj]
    exact add (h j (Finset.mem_insert_self j s)) (ih fun i hi => h i (Finset.mem_insert_of_mem hi))

/-- The sum of a whole finite family of reals is a real. -/
theorem sum {ι : Type*} [Fintype ι] (a : ι → EReal) (h : ∀ i, IsReal (a i)) : IsReal (∑ i, a i) :=
  finset_sum Finset.univ a fun i _ => h i

/-- The quotient of a real by a nonzero real is the real quotient (the product with the reciprocal). -/
theorem div {x y : EReal} (hx : IsReal x) (hy : IsReal y) (hy0 : y ≠ 0) : IsReal (Ideal.div x y) := by
  obtain ⟨b, rfl⟩ := hy
  have hb : b ≠ 0 := fun h => hy0 (by rw [h]; rfl)
  rw [Ideal.div_coe hb]
  exact mul hx (coe _)

/-- The reciprocal square root of a positive real r is the real (√r)⁻¹. -/
theorem rsqrt_of_pos {x : EReal} (hx : IsReal x) (h0 : 0 < x) : IsReal (Ideal.rsqrt x) := by
  obtain ⟨r, rfl⟩ := hx
  have hr : 0 < r := EReal.coe_pos.mp h0
  rw [Ideal.rsqrt_coe, if_neg (not_lt.mpr hr.le), if_neg hr.ne']
  exact coe _

end IsReal

/-- A real number is an extended real that is neither infinity. -/
theorem isReal_iff (x : EReal) : IsReal x ↔ x ≠ ⊤ ∧ x ≠ ⊥ := by
  constructor
  · rintro ⟨r, rfl⟩
    exact ⟨EReal.coe_ne_top r, EReal.coe_ne_bot r⟩
  · rintro ⟨ht, hb⟩
    exact ⟨x.toReal, (EReal.coe_toReal ht hb).symm⟩

/-- An extended real whose absolute value, max x (-x), is below +∞ is a real number: at ⊤ the
    first argument is ⊤, at ⊥ the second is. -/
theorem isReal_of_abs_lt_top {x : EReal} (h : max x (-x) < ⊤) : IsReal x := by
  rw [isReal_iff]
  constructor
  · rintro rfl
    exact absurd h (by simp)
  · rintro rfl
    exact absurd h (by simp)

/-! ### The four literals -/

/-- The pattern of 200000.0 denotes the real 200000. -/
theorem ofBits_N : Ideal.ofBits .f32 0x48435000#32 = ((200000 : ℝ) : EReal) := by
  simp [Ideal.ofBits, Ideal.ieee, -EReal.coe_mul]; norm_num

/-- The pattern of +0.0 denotes 0. -/
theorem ofBits_zero : Ideal.ofBits .f32 0x00000000#32 = 0 := Ideal.ofBits_zero_f32

/-- The pattern of 1.0 denotes the real 1. -/
theorem ofBits_one : Ideal.ofBits .f32 0x3F800000#32 = ((1 : ℝ) : EReal) := by
  simp [Ideal.ofBits, Ideal.ieee, -EReal.coe_mul]; norm_num

/-- The pattern 0x3727C5AC (the float nearest 1e-5) denotes a positive real, 10995116 · 2⁻⁴⁰.
    Only its sign and finiteness are used. -/
theorem ofBits_eps_pos : ∃ e : ℝ, 0 < e ∧ Ideal.ofBits .f32 0x3727C5AC#32 = (e : EReal) := by
  refine ⟨(10995116 : ℝ) * (2 : ℝ) ^ (-40 : ℤ), by positivity, ?_⟩
  simp [Ideal.ofBits, Ideal.ieee, -EReal.coe_mul]

/-! ### Sums of reals -/

/-- The embedding of the reals carries a finite sum to the sum of the embedded terms. -/
theorem coe_finset_sum {ι : Type*} (s : Finset ι) (r : ι → ℝ) :
    ((∑ i ∈ s, r i : ℝ) : EReal) = ∑ i ∈ s, (r i : EReal) := by
  classical
  induction s using Finset.induction_on with
  | empty => simp
  | insert j s hj ih => rw [Finset.sum_insert hj, Finset.sum_insert hj, EReal.coe_add, ih]

/-- The mean of a column of embedded reals over a nonzero real count is the embedded real mean. -/
theorem div_sum_coe {ι : Type*} [Fintype ι] (r : ι → ℝ) {N : ℝ} (hN0 : N ≠ 0) :
    Ideal.div (∑ i, (r i : EReal)) (N : EReal) = (((∑ i, r i) * (1 / N) : ℝ) : EReal) := by
  rw [Ideal.div_coe hN0, ← coe_finset_sum, ← EReal.coe_mul]

/-! ### The variance law in ℝ -/

/-- The sum of squared deviations from any m, expanded. -/
theorem real_sum_sq_dev {ι : Type*} [Fintype ι] (r : ι → ℝ) (m : ℝ) :
    ∑ i, (r i - m) * (r i - m)
      = (∑ i, r i * r i) - 2 * m * (∑ i, r i) + (Fintype.card ι : ℝ) * (m * m) := by
  have h : ∀ i, (r i - m) * (r i - m) = r i * r i - 2 * m * r i + m * m := fun i => by ring
  simp only [h, Finset.sum_add_distrib, Finset.sum_sub_distrib, ← Finset.mul_sum, Finset.sum_const,
    Finset.card_univ, nsmul_eq_mul]
  ring

/-- E[r²] − E[r]² = E[(r − E r)²] over N ≠ 0 real entries. -/
theorem real_variance_eq {ι : Type*} [Fintype ι] (r : ι → ℝ) (N : ℝ)
    (hN : (Fintype.card ι : ℝ) = N) (hN0 : N ≠ 0) :
    (∑ i, r i * r i) * (1 / N) - (∑ i, r i) * (1 / N) * ((∑ i, r i) * (1 / N))
      = (∑ i, (r i - (∑ i, r i) * (1 / N)) * (r i - (∑ i, r i) * (1 / N))) * (1 / N) := by
  rw [real_sum_sq_dev, hN]
  field_simp
  ring

/-- The mean of squared deviations is a nonnegative real: a sum of squares times 1 / N, N a count. -/
theorem real_variance_nonneg {ι : Type*} [Fintype ι] (r : ι → ℝ) (m : ℝ) (N : ℝ)
    (hN : (Fintype.card ι : ℝ) = N) :
    0 ≤ (∑ i, (r i - m) * (r i - m)) * (1 / N) := by
  have hN' : 0 ≤ N := hN ▸ Nat.cast_nonneg _
  exact mul_nonneg (Finset.sum_nonneg fun i _ => mul_self_nonneg _) (one_div_nonneg.mpr hN')

/-! ### The variance law at the extended reals -/

/-- The mean of squared deviations of a column of embedded reals is the embedded real one. -/
theorem div_sum_sq_dev_coe {ι : Type*} [Fintype ι] (r : ι → ℝ) {N : ℝ} (hN0 : N ≠ 0) :
    Ideal.div (∑ i, ((r i : EReal) - Ideal.div (∑ i, (r i : EReal)) (N : EReal))
        * ((r i : EReal) - Ideal.div (∑ i, (r i : EReal)) (N : EReal))) (N : EReal)
      = (((∑ i, (r i - (∑ i, r i) * (1 / N)) * (r i - (∑ i, r i) * (1 / N))) * (1 / N) : ℝ) : EReal) := by
  simp only [div_sum_coe r hN0, ← EReal.coe_sub, ← EReal.coe_mul]
  exact div_sum_coe (fun i => (r i - (∑ i, r i) * (1 / N)) * (r i - (∑ i, r i) * (1 / N))) hN0

/-- THE LAW: for a column of N ≠ 0 real entries, the variance as E[a²] − E[a]² is the variance as
    E[(a − E a)²]. -/
theorem variance_eq {ι : Type} [Fintype ι] (a : ι → EReal) (ha : ∀ i, IsReal (a i)) (N : ℝ)
    (hN : (Fintype.card ι : ℝ) = N) (hN0 : N ≠ 0) :
    Ideal.div (∑ i, a i * a i) (N : EReal)
        - Ideal.div (∑ i, a i) (N : EReal) * Ideal.div (∑ i, a i) (N : EReal)
      = Ideal.div (∑ i, (a i - Ideal.div (∑ i, a i) (N : EReal))
          * (a i - Ideal.div (∑ i, a i) (N : EReal))) (N : EReal) := by
  choose r hr using ha
  obtain rfl : a = fun i => (r i : EReal) := funext hr
  rw [div_sum_sq_dev_coe r hN0, div_sum_coe r hN0]
  simp only [← EReal.coe_mul]
  rw [div_sum_coe (fun i => r i * r i) hN0, ← EReal.coe_sub, real_variance_eq r N hN hN0]

/-- The variance of a column of N ≠ 0 real entries is a nonnegative real. -/
theorem variance_nonneg {ι : Type} [Fintype ι] (a : ι → EReal) (ha : ∀ i, IsReal (a i)) (N : ℝ)
    (hN : (Fintype.card ι : ℝ) = N) (hN0 : N ≠ 0) :
    ∃ v : ℝ, 0 ≤ v ∧
      Ideal.div (∑ i, (a i - Ideal.div (∑ i, a i) (N : EReal))
          * (a i - Ideal.div (∑ i, a i) (N : EReal))) (N : EReal) = (v : EReal) := by
  choose r hr using ha
  obtain rfl : a = fun i => (r i : EReal) := funext hr
  exact ⟨_, real_variance_nonneg r _ N hN, div_sum_sq_dev_coe r hN0⟩

/-- The mean of a column of real entries over a nonzero real count is a real. -/
theorem mean_isReal {ι : Type} [Fintype ι] (a : ι → EReal) (ha : ∀ i, IsReal (a i)) (N : ℝ)
    (hN0 : N ≠ 0) : IsReal (Ideal.div (∑ i, a i) (N : EReal)) :=
  IsReal.div (IsReal.sum a ha) (IsReal.coe N) (by exact_mod_cast hN0)

/-! ### The same, with each sum written from an initial zero

A float sum on the host is "the initial value plus the sum"; with the initial value 0 that is the sum. -/

theorem variance_eq_zero_add {ι : Type} [Fintype ι] (a : ι → EReal) (ha : ∀ i, IsReal (a i)) (N : ℝ)
    (hN : (Fintype.card ι : ℝ) = N) (hN0 : N ≠ 0) :
    Ideal.div (0 + ∑ i, a i * a i) (N : EReal)
        - Ideal.div (0 + ∑ i, a i) (N : EReal) * Ideal.div (0 + ∑ i, a i) (N : EReal)
      = Ideal.div (0 + ∑ i, (a i - Ideal.div (0 + ∑ i, a i) (N : EReal))
          * (a i - Ideal.div (0 + ∑ i, a i) (N : EReal))) (N : EReal) := by
  simp only [zero_add]
  exact variance_eq a ha N hN hN0

theorem variance_nonneg_zero_add {ι : Type} [Fintype ι] (a : ι → EReal) (ha : ∀ i, IsReal (a i))
    (N : ℝ) (hN : (Fintype.card ι : ℝ) = N) (hN0 : N ≠ 0) :
    ∃ v : ℝ, 0 ≤ v ∧
      Ideal.div (0 + ∑ i, (a i - Ideal.div (0 + ∑ i, a i) (N : EReal))
          * (a i - Ideal.div (0 + ∑ i, a i) (N : EReal))) (N : EReal) = (v : EReal) := by
  simp only [zero_add]
  exact variance_nonneg a ha N hN hN0

/-! ### Regrouping a sum into blocks -/

/-- A sum over γ is the iterated sum over α then β along any bijection α × β ≃ γ. -/
theorem sum_regroup {α β γ M : Type*} [Fintype α] [Fintype β] [Fintype γ] [AddCommMonoid M]
    (e : α × β ≃ γ) (f : γ → M) : ∑ x, ∑ y, f (e (x, y)) = ∑ k, f k := by
  rw [← Fintype.sum_prod_type (fun p : α × β => f (e p))]
  exact Fintype.sum_equiv e _ _ fun _ => rfl

/-- The 200000 rows as 20 blocks of 10000: (b, r) ↦ 10000 · b + r. -/
def blockEquiv : Fin 20 × Fin 10000 ≃ Fin 200000 := finProdFinEquiv

theorem blockEquiv_val (b : Fin 20) (r : Fin 10000) :
    (blockEquiv (b, r)).val = 10000 * b.val + r.val := by
  show r.val + 10000 * b.val = 10000 * b.val + r.val
  exact Nat.add_comm _ _

/-- A sum over the 200000 rows is the sum over the 20 blocks of the sums over each block's 10000 rows. -/
theorem sum_blocks {M : Type*} [AddCommMonoid M] (f : Fin 200000 → M) :
    ∑ b : Fin 20, ∑ r : Fin 10000, f (blockEquiv (b, r)) = ∑ k, f k :=
  sum_regroup blockEquiv f

end Cert.Alg

end
-- ==== Proof.RowLaw.lean ====
/-
  One row of the attention map, on the extended reals.

  A row `q` of products is first normalised by its own maximum `r = max q`, then passed through a softmax.
  The two programs order the two quotients differently: one forms the reciprocals `1 / r` and `1 / s` once per
  row and multiplies every entry by them; the other divides every entry, `(1 · q u) / r` and `p u / s`.
  Division by zero is not the product with a reciprocal on the extended reals, so the two orders agree only
  where `r ≠ 0`; there `r` is a nonzero real (the entries being real), every scaled entry is real, the
  shifted exponentials are positive reals, their sum `s` is a positive real, and both quotients are products
  with `r⁻¹` and `s⁻¹`.
-/
import proofs.«403823_j68401649156342_3_alg».proof.Proof.LibRealVariance
import Mathlib.Analysis.SpecialFunctions.Exp

noncomputable section

namespace Cert.Attn

open Idealize.ShloMosaic Cert.Alg
open scoped BigOperators

variable {n : ℕ}

/-- The maximum of a row, taken from −∞. -/
def rowMax (q : Fin n → EReal) : EReal := (Finset.univ : Finset (Fin n)).fold max ⊥ q

/-- A row times the reciprocal of its maximum: one quotient per row, one product per entry. -/
def scaledRecip (q : Fin n → EReal) : Fin n → EReal := fun u => q u * Ideal.div 1 (rowMax q)

/-- A row divided by its maximum, entry by entry (each entry first multiplied by the temperature 1). -/
def scaledQuot (q : Fin n → EReal) : Fin n → EReal := fun u => Ideal.div (1 * q u) (rowMax q)

/-- The softmax of a row with the reciprocal of the sum multiplied in. -/
def softmaxRecip (l : Fin n → EReal) (t : Fin n) : EReal :=
  Ideal.exp (l t - rowMax l) * Ideal.div 1 (∑ u, Ideal.exp (l u - rowMax l))

/-- The softmax of a row as a quotient by the sum; the shift is the row's maximum joined with −∞, and the
    sum starts from 0. -/
def softmaxQuot (l : Fin n → EReal) (t : Fin n) : EReal :=
  Ideal.div (Ideal.exp (l t - max ⊥ (rowMax l))) (0 + ∑ u, Ideal.exp (l u - max ⊥ (rowMax l)))

/-- The maximum from −∞ over a finite set of reals is −∞ on the empty set and a real otherwise: by induction
    on the set, the maximum of a real with −∞ or with a real being a real. -/
private theorem fold_max_empty_or_isReal (q : Fin n → EReal) (hq : ∀ u, IsReal (q u)) (s : Finset (Fin n)) :
    s = ∅ ∨ IsReal (s.fold max ⊥ q) := by
  classical
  induction s using Finset.induction_on with
  | empty => exact Or.inl rfl
  | insert j s hj ih =>
    right
    rw [Finset.fold_insert hj]
    rcases ih with h | h
    · subst h
      rw [Finset.fold_empty, max_eq_left bot_le]
      exact hq j
    · exact IsReal.max (hq j) h

/-- The maximum of a nonempty row of reals is a real. -/
theorem rowMax_isReal (hn : 0 < n) (q : Fin n → EReal) (hq : ∀ u, IsReal (q u)) : IsReal (rowMax q) := by
  rcases fold_max_empty_or_isReal q hq Finset.univ with h | h
  · exfalso
    haveI : Nonempty (Fin n) := ⟨⟨0, hn⟩⟩
    exact Finset.univ_nonempty.ne_empty h
  · exact h

/-- Where the row's maximum is not zero the two normalisations agree. -/
theorem scaled_eq (hn : 0 < n) (q : Fin n → EReal) (hq : ∀ u, IsReal (q u)) (h0 : rowMax q ≠ 0) :
    scaledRecip q = scaledQuot q := by
  obtain ⟨ρ, hρ⟩ := rowMax_isReal hn q hq
  have hρ0 : ρ ≠ 0 := fun h => h0 (by rw [hρ, h]; rfl)
  funext u
  simp only [scaledRecip, scaledQuot]
  rw [hρ, Ideal.div_coe hρ0, Ideal.div_coe hρ0]
  simp only [one_mul]

/-- … and every normalised entry is a real. -/
theorem scaledRecip_isReal (hn : 0 < n) (q : Fin n → EReal) (hq : ∀ u, IsReal (q u)) (h0 : rowMax q ≠ 0) (u : Fin n) :
    IsReal (scaledRecip q u) := by
  show IsReal (q u * Ideal.div 1 (rowMax q))
  exact IsReal.mul (hq u) (IsReal.div IsReal.one (rowMax_isReal hn q hq) h0)

/-- On a nonempty row of reals the two softmaxes agree: the sum of the shifted exponentials is a positive real. -/
theorem softmax_eq (hn : 0 < n) (l : Fin n → EReal) (hl : ∀ u, IsReal (l u)) : softmaxRecip l = softmaxQuot l := by
  obtain ⟨m, hm⟩ := rowMax_isReal hn l hl
  choose r hr using hl
  -- every shifted exponential is the positive real exp (r u − m)
  have hexp : ∀ u, Ideal.exp (l u - (m : EReal)) = ((Real.exp (r u - m) : ℝ) : EReal) := by
    intro u
    rw [hr u, ← EReal.coe_sub, Ideal.exp_coe]
  -- their sum over the nonempty row is a positive real
  have hσ : (∑ u, Real.exp (r u - m)) ≠ 0 := by
    haveI : Nonempty (Fin n) := ⟨⟨0, hn⟩⟩
    exact (Finset.sum_pos (fun u _ => Real.exp_pos _) Finset.univ_nonempty).ne'
  funext t
  simp only [softmaxRecip, softmaxQuot]
  rw [max_eq_right bot_le, zero_add, hm]
  simp only [hexp]
  rw [← coe_finset_sum, Ideal.div_coe hσ, Ideal.div_coe hσ, one_mul]

/-- The whole row: normalise, then softmax, in either order of the quotients. -/
theorem tail_eq (hn : 0 < n) (q : Fin n → EReal) (hq : ∀ u, IsReal (q u)) (h0 : rowMax q ≠ 0) :
    softmaxRecip (scaledRecip q) = softmaxQuot (scaledQuot q) := by
  rw [← scaled_eq hn q hq h0]
  exact softmax_eq hn _ (scaledRecip_isReal hn q hq h0)

end Cert.Attn

end
-- ==== Proof.Spec.lean ====
/-
  The attention map both programs compute, as one function of the nine argument arrays.

  For a batch `b` and a position `s`: a two-layer perceptron (affine, ReLU, affine) of the row `x[b, s, ·]`
  with the query weights gives `Q[b, s, ·]`, with the key weights `K[b, s, ·]`; the score of `s` against `t`
  is `∑ d, Q[b, s, d] · K[b, t, d]`; the row of scores is normalised by its maximum and passed through a softmax
  (RowLaw). `attnRecip` multiplies by reciprocals, `attnQuot` divides; they agree where the inputs are real and no
  row of scores has maximum zero.
-/
import proofs.«403823_j68401649156342_3_alg».proof.Proof.RowLaw
import Idealize.ShloMosaic.Lib.ValueIdx

noncomputable section

namespace Cert.Attn

open Idealize.ShloMosaic Idealize.ShloMosaic.ValueIdx Cert.Alg
open scoped BigOperators

/-- The argument arrays' types, by their literal shapes. -/
abbrev ArrX := (⟨3, ![8, 2048, 128]⟩ : Shape).Idx → EReal
abbrev ArrW1 := (⟨2, ![128, 256]⟩ : Shape).Idx → EReal
abbrev ArrW2 := (⟨2, ![256, 256]⟩ : Shape).Idx → EReal
abbrev ArrB := (⟨1, ![256]⟩ : Shape).Idx → EReal

/-- The hidden layer: `relu (x[b, s, ·] · W1[·, h] + b1[h])`. -/
def hidden (x : ArrX) (W1 : ArrW1) (b1 : ArrB) (b : Fin 8) (s : Fin 2048) (h : Fin 256) : EReal :=
  max ((∑ i : Fin 128, x (ix3 b s i) * W1 (ix2 i h)) + b1 (ix1 h)) 0

/-- The perceptron's output: `hidden[b, s, ·] · W2[·, d] + b2[d]`. -/
def mlp (x : ArrX) (W1 : ArrW1) (b1 : ArrB) (W2 : ArrW2) (b2 : ArrB) (b : Fin 8) (s : Fin 2048) (d : Fin 256) : EReal :=
  (∑ h : Fin 256, hidden x W1 b1 b s h * W2 (ix2 h d)) + b2 (ix1 d)

/-- The score of position `s` against position `t` in batch `b`. -/
def score (x : ArrX) (Wq1 : ArrW1) (bq1 : ArrB) (Wq2 : ArrW2) (bq2 : ArrB) (Wk1 : ArrW1) (bk1 : ArrB) (Wk2 : ArrW2) (bk2 : ArrB)
    (b : Fin 8) (s t : Fin 2048) : EReal :=
  ∑ d : Fin 256, mlp x Wq1 bq1 Wq2 bq2 b s d * mlp x Wk1 bk1 Wk2 bk2 b t d

/-- The attention map with the quotients taken entry by entry. -/
def attnQuot (x : ArrX) (Wq1 : ArrW1) (bq1 : ArrB) (Wq2 : ArrW2) (bq2 : ArrB) (Wk1 : ArrW1) (bk1 : ArrB) (Wk2 : ArrW2) (bk2 : ArrB) :
    (⟨3, ![8, 2048, 2048]⟩ : Shape).Idx → EReal :=
  fun i => softmaxQuot (scaledQuot (score x Wq1 bq1 Wq2 bq2 Wk1 bk1 Wk2 bk2 (i 0) (i 1))) (i 2)

/-- The attention map with the reciprocals taken once per row. -/
def attnRecip (x : ArrX) (Wq1 : ArrW1) (bq1 : ArrB) (Wq2 : ArrW2) (bq2 : ArrB) (Wk1 : ArrW1) (bk1 : ArrB) (Wk2 : ArrW2) (bk2 : ArrB) :
    (⟨3, ![8, 2048, 2048]⟩ : Shape).Idx → EReal :=
  fun i => softmaxRecip (scaledRecip (score x Wq1 bq1 Wq2 bq2 Wk1 bk1 Wk2 bk2 (i 0) (i 1))) (i 2)

/-- Real inputs give real perceptron outputs … -/
theorem mlp_isReal (x : ArrX) (W1 : ArrW1) (b1 : ArrB) (W2 : ArrW2) (b2 : ArrB)
    (hx : ∀ i, IsReal (x i)) (hW1 : ∀ i, IsReal (W1 i)) (hb1 : ∀ i, IsReal (b1 i)) (hW2 : ∀ i, IsReal (W2 i)) (hb2 : ∀ i, IsReal (b2 i))
    (b : Fin 8) (s : Fin 2048) (d : Fin 256) : IsReal (mlp x W1 b1 W2 b2 b s d) := by
  unfold mlp hidden
  exact ((IsReal.sum _ fun h => (((IsReal.sum _ fun i => (hx _).mul (hW1 _)).add (hb1 _)).max IsReal.zero).mul (hW2 _)).add (hb2 _))

/-- … and real scores. -/
theorem score_isReal (x : ArrX) (Wq1 : ArrW1) (bq1 : ArrB) (Wq2 : ArrW2) (bq2 : ArrB) (Wk1 : ArrW1) (bk1 : ArrB) (Wk2 : ArrW2) (bk2 : ArrB)
    (hx : ∀ i, IsReal (x i)) (hWq1 : ∀ i, IsReal (Wq1 i)) (hbq1 : ∀ i, IsReal (bq1 i)) (hWq2 : ∀ i, IsReal (Wq2 i)) (hbq2 : ∀ i, IsReal (bq2 i))
    (hWk1 : ∀ i, IsReal (Wk1 i)) (hbk1 : ∀ i, IsReal (bk1 i)) (hWk2 : ∀ i, IsReal (Wk2 i)) (hbk2 : ∀ i, IsReal (bk2 i))
    (b : Fin 8) (s t : Fin 2048) : IsReal (score x Wq1 bq1 Wq2 bq2 Wk1 bk1 Wk2 bk2 b s t) := by
  unfold score
  exact IsReal.sum _ fun d => (mlp_isReal x Wq1 bq1 Wq2 bq2 hx hWq1 hbq1 hWq2 hbq2 b s d).mul (mlp_isReal x Wk1 bk1 Wk2 bk2 hx hWk1 hbk1 hWk2 hbk2 b t d)

/-- Where every input is real and no row of scores has maximum zero, the two orders of the quotients give one map. -/
theorem attn_eq (x : ArrX) (Wq1 : ArrW1) (bq1 : ArrB) (Wq2 : ArrW2) (bq2 : ArrB) (Wk1 : ArrW1) (bk1 : ArrB) (Wk2 : ArrW2) (bk2 : ArrB)
    (hx : ∀ i, IsReal (x i)) (hWq1 : ∀ i, IsReal (Wq1 i)) (hbq1 : ∀ i, IsReal (bq1 i)) (hWq2 : ∀ i, IsReal (Wq2 i)) (hbq2 : ∀ i, IsReal (bq2 i))
    (hWk1 : ∀ i, IsReal (Wk1 i)) (hbk1 : ∀ i, IsReal (bk1 i)) (hWk2 : ∀ i, IsReal (Wk2 i)) (hbk2 : ∀ i, IsReal (bk2 i))
    (h0 : ∀ (b : Fin 8) (s : Fin 2048), rowMax (score x Wq1 bq1 Wq2 bq2 Wk1 bk1 Wk2 bk2 b s) ≠ 0) :
    attnRecip x Wq1 bq1 Wq2 bq2 Wk1 bk1 Wk2 bk2 = attnQuot x Wq1 bq1 Wq2 bq2 Wk1 bk1 Wk2 bk2 := by
  funext i
  unfold attnRecip attnQuot
  exact congrFun (tail_eq (by norm_num) _
    (fun t => score_isReal x Wq1 bq1 Wq2 bq2 Wk1 bk1 Wk2 bk2 hx hWq1 hbq1 hWq2 hbq2 hWk1 hbk1 hWk2 hbk2 (i 0) (i 1) t) (h0 (i 0) (i 1))) (i 2)

end Cert.Attn

end
-- ==== Proof.RefRead.lean ====
/-
  The reference program's stages are the specification's functions.

  Its products `%18` are the scores; its first maximum `%19` (a reduce from −∞ over the last axis) is the row maximum
  of the scores; its result `%35` is the attention map with the quotients taken entry by entry (`attnQuot`): the
  scores times the temperature 1, divided by the broadcast row maximum; the softmax's shift is the second maximum
  `%25` joined with −∞; the sum starts from 0; the last operation divides.
-/
import proofs.«403823_j68401649156342_3_alg».proof.Proof.Spec
import proofs.«403823_j68401649156342_3_alg».proof.Proof.Gen.ReferenceIdeal.Read
import Idealize.ShloMosaic.PureOps.Reduce

noncomputable section

namespace Cert.Attn.Ref

open Idealize.ShloMosaic Idealize.ShloMosaic.ValueIdx Cert.Alg Cert.Attn
open Cert.ReferenceIdeal Cert.ReferenceIdeal.Gen Cert.ReferenceIdeal.Read

/-- The query side's hidden layer `%4`: the first product `%0` plus the broadcast bias `%2`, joined with the broadcast zero. -/
private theorem hidden_read_q (x0 : ArrX) (x1 : ArrW1) (x2 : ArrB) (b : Fin 8) (s : Fin 2048) (h : Fin 256) :
    val_main_v4 (F := Ideal) x0 x1 x2 (ix3 b s h) = hidden x0 x1 x2 b s h := by
  have el : ∀ k : Fin 128, lidx_main_v0 (ix3 b s h) k = ix3 b s k := fun k =>
    funext fun a => Fin.ext (by match a with | ⟨0, _⟩ => rfl | ⟨1, _⟩ => rfl | ⟨2, _⟩ => rfl)
  have er : ∀ k : Fin 128, ridx_main_v0 (ix3 b s h) k = ix2 k h := fun k =>
    funext fun a => Fin.ext (by match a with | ⟨0, _⟩ => rfl | ⟨1, _⟩ => rfl)
  have eb : idx_main_v1 (idx_main_v2 (ix3 b s h)) = ix1 h :=
    funext fun a => Fin.ext (by match a with | ⟨0, _⟩ => rfl)
  rw [val_main_v4_apply, val_main_v3_apply, val_main_v0_apply, val_main_v2_apply, val_main_v1_apply,
    val_main_call0_v0_apply, val_main_call0_cst_apply]
  simp only [el, er, eb, Ideal.addf_def, Ideal.maximumf_def, Ideal.ofBits_def, Ideal.ofBits_zero_f32]
  rfl

/-- The key side's hidden layer `%13`, likewise. -/
private theorem hidden_read_k (x0 : ArrX) (x5 : ArrW1) (x6 : ArrB) (b : Fin 8) (s : Fin 2048) (h : Fin 256) :
    val_main_v13 (F := Ideal) x0 x5 x6 (ix3 b s h) = hidden x0 x5 x6 b s h := by
  have el : ∀ k : Fin 128, lidx_main_v9 (ix3 b s h) k = ix3 b s k := fun k =>
    funext fun a => Fin.ext (by match a with | ⟨0, _⟩ => rfl | ⟨1, _⟩ => rfl | ⟨2, _⟩ => rfl)
  have er : ∀ k : Fin 128, ridx_main_v9 (ix3 b s h) k = ix2 k h := fun k =>
    funext fun a => Fin.ext (by match a with | ⟨0, _⟩ => rfl | ⟨1, _⟩ => rfl)
  have eb : idx_main_v10 (idx_main_v11 (ix3 b s h)) = ix1 h :=
    funext fun a => Fin.ext (by match a with | ⟨0, _⟩ => rfl)
  rw [val_main_v13_apply, val_main_v12_apply, val_main_v9_apply, val_main_v11_apply, val_main_v10_apply,
    val_main_call1_v0_apply, val_main_call1_cst_apply]
  simp only [el, er, eb, Ideal.addf_def, Ideal.maximumf_def, Ideal.ofBits_def, Ideal.ofBits_zero_f32]
  rfl

/-- The reference's perceptron outputs `%8` (queries) and `%17` (keys) are the specification's. -/
theorem queries_read (x0 : ArrX) (x1 : ArrW1) (x2 : ArrB) (x3 : ArrW2) (x4 : ArrB) (x5 : ArrW1) (x6 : ArrB) (x7 : ArrW2) (x8 : ArrB) (b : Fin 8) (s : Fin 2048) (d : Fin 256) :
    val_main_v8 (F := Ideal) x0 x1 x2 x3 x4 (ix3 b s d) = mlp x0 x1 x2 x3 x4 b s d := by
  have el : ∀ k : Fin 256, lidx_main_v5 (ix3 b s d) k = ix3 b s k := fun k =>
    funext fun a => Fin.ext (by match a with | ⟨0, _⟩ => rfl | ⟨1, _⟩ => rfl | ⟨2, _⟩ => rfl)
  have er : ∀ k : Fin 256, ridx_main_v5 (ix3 b s d) k = ix2 k d := fun k =>
    funext fun a => Fin.ext (by match a with | ⟨0, _⟩ => rfl | ⟨1, _⟩ => rfl)
  have eb : idx_main_v6 (idx_main_v7 (ix3 b s d)) = ix1 d :=
    funext fun a => Fin.ext (by match a with | ⟨0, _⟩ => rfl)
  rw [val_main_v8_apply, val_main_v5_apply, val_main_v7_apply, val_main_v6_apply]
  simp only [el, er, eb, hidden_read_q, Ideal.addf_def]
  rfl

theorem keys_read (x0 : ArrX) (x1 : ArrW1) (x2 : ArrB) (x3 : ArrW2) (x4 : ArrB) (x5 : ArrW1) (x6 : ArrB) (x7 : ArrW2) (x8 : ArrB) (b : Fin 8) (s : Fin 2048) (d : Fin 256) :
    val_main_v17 (F := Ideal) x0 x5 x6 x7 x8 (ix3 b s d) = mlp x0 x5 x6 x7 x8 b s d := by
  have el : ∀ k : Fin 256, lidx_main_v14 (ix3 b s d) k = ix3 b s k := fun k =>
    funext fun a => Fin.ext (by match a with | ⟨0, _⟩ => rfl | ⟨1, _⟩ => rfl | ⟨2, _⟩ => rfl)
  have er : ∀ k : Fin 256, ridx_main_v14 (ix3 b s d) k = ix2 k d := fun k =>
    funext fun a => Fin.ext (by match a with | ⟨0, _⟩ => rfl | ⟨1, _⟩ => rfl)
  have eb : idx_main_v15 (idx_main_v16 (ix3 b s d)) = ix1 d :=
    funext fun a => Fin.ext (by match a with | ⟨0, _⟩ => rfl)
  rw [val_main_v17_apply, val_main_v14_apply, val_main_v16_apply, val_main_v15_apply]
  simp only [el, er, eb, hidden_read_k, Ideal.addf_def]
  rfl

/-- The reference's products `%18` are the scores. -/
theorem score_read (x0 : ArrX) (x1 : ArrW1) (x2 : ArrB) (x3 : ArrW2) (x4 : ArrB) (x5 : ArrW1) (x6 : ArrB) (x7 : ArrW2) (x8 : ArrB) (b : Fin 8) (s t : Fin 2048) :
    val_main_v18 (F := Ideal) x0 x1 x2 x3 x4 x5 x6 x7 x8 (ix3 b s t) = score x0 x1 x2 x3 x4 x5 x6 x7 x8 b s t := by
  have el : ∀ k : Fin 256, lidx_main_v18 (ix3 b s t) k = ix3 b s k := fun k =>
    funext fun a => Fin.ext (by match a with | ⟨0, _⟩ => rfl | ⟨1, _⟩ => rfl | ⟨2, _⟩ => rfl)
  have er : ∀ k : Fin 256, ridx_main_v18 (ix3 b s t) k = ix3 b t k := fun k =>
    funext fun a => Fin.ext (by match a with | ⟨0, _⟩ => rfl | ⟨1, _⟩ => rfl | ⟨2, _⟩ => rfl)
  rw [val_main_v18_apply]
  unfold score
  exact Finset.sum_congr rfl fun k _ => by
    rw [el, er, queries_read x0 x1 x2 x3 x4 x5 x6 x7 x8, keys_read x0 x1 x2 x3 x4 x5 x6 x7 x8]

/-- A maximum reduce from −∞ over the last axis of an [8, 2048, 2048] array, read at (b, s): the maximum of the row
    `y[b, s, ·]`, taken from −∞. The fold over the indices dropping to (b, s) is the fold over the last coordinate,
    the pattern `0xFF800000` is −∞, and the host's maximum is `max`. -/
private theorem hostMax_read (y : (⟨S8x2048x2048, .f32⟩ : BufTy).Contents (Elt Ideal)) (b : Fin 8) (s : Fin 2048) :
    Host.reduce (FloatOps.maximumf (F := Ideal) (φ := .f32)) y (constant (F := Ideal) S_ .f32 0xFF800000#32)
        reducesTo_S8x2048x2048_S8x2048_d2 h_S_ (ix2 b s)
      = rowMax (fun t : Fin 2048 => y (ix3 b s t)) := by
  have hr : S8x2048x2048.Reduces [2] S8x2048 := by decide
  have hb : Ideal.ofBits .f32 0xFF800000#32 = (⊥ : EReal) := by simp [Ideal.ofBits, Ideal.ieee]
  have hf : (y ∘ hr.lift (ix2 b s)) = fun t : Fin 2048 => y (ix3 b s t) :=
    funext fun k => congrArg y (funext fun c => Fin.ext (by
      match c with | ⟨0, _⟩ => rfl | ⟨1, _⟩ => rfl | ⟨2, _⟩ => rfl))
  rw [Host.reduce_eq_fold_single (FloatOps.maximumf (F := Ideal) (φ := .f32)) y _ reducesTo_S8x2048x2048_S8x2048_d2 hr h_S_, hf]
  show Finset.fold max (Ideal.ofBits .f32 0xFF800000#32) (fun t : Fin 2048 => y (ix3 b s t)) Finset.univ = _
  rw [hb]
  rfl

/-- The reference's first maximum `%19` is the row maximum of the scores. -/
theorem rowmax_read (x0 : ArrX) (x1 : ArrW1) (x2 : ArrB) (x3 : ArrW2) (x4 : ArrB) (x5 : ArrW1) (x6 : ArrB) (x7 : ArrW2) (x8 : ArrB) (b : Fin 8) (s : Fin 2048) :
    val_main_v19 (F := Ideal) x0 x1 x2 x3 x4 x5 x6 x7 x8 (ix2 b s) = rowMax (score x0 x1 x2 x3 x4 x5 x6 x7 x8 b s) := by
  unfold val_main_v19 val_main_cst
  rw [hostMax_read]
  exact congrArg rowMax (funext fun t => score_read x0 x1 x2 x3 x4 x5 x6 x7 x8 b s t)

/-- The quotient `%24`: the score times the temperature 1, divided by the broadcast row maximum. -/
private theorem scaled_read (x0 : ArrX) (x1 : ArrW1) (x2 : ArrB) (x3 : ArrW2) (x4 : ArrB) (x5 : ArrW1) (x6 : ArrB) (x7 : ArrW2) (x8 : ArrB) (b : Fin 8) (s t : Fin 2048) :
    val_main_v24 (F := Ideal) x0 x1 x2 x3 x4 x5 x6 x7 x8 (ix3 b s t) = scaledQuot (score x0 x1 x2 x3 x4 x5 x6 x7 x8 b s) t := by
  have e : idx_main_v20 (idx_main_v23 (ix3 b s t)) = ix2 b s :=
    funext fun a => Fin.ext (by match a with | ⟨0, _⟩ => rfl | ⟨1, _⟩ => rfl)
  have h1 : Ideal.ofBits .f32 0x3F800000#32 = (1 : EReal) := by rw [ofBits_one, EReal.coe_one]
  rw [val_main_v24_apply, val_main_v22_apply, val_main_v21_apply, val_main_cst_0_apply, val_main_v23_apply,
    val_main_v20_apply, e, rowmax_read, score_read]
  simp only [Ideal.hostDivf_def, Ideal.mulf_def, Ideal.ofBits_def, h1]
  rfl

/-- The shift `%27`: −∞ joined with the second maximum `%25`, the row maximum of the quotients. -/
private theorem shift_read (x0 : ArrX) (x1 : ArrW1) (x2 : ArrB) (x3 : ArrW2) (x4 : ArrB) (x5 : ArrW1) (x6 : ArrB) (x7 : ArrW2) (x8 : ArrB) (b : Fin 8) (s : Fin 2048) :
    val_main_v27 (F := Ideal) x0 x1 x2 x3 x4 x5 x6 x7 x8 (ix2 b s)
      = max ⊥ (rowMax (scaledQuot (score x0 x1 x2 x3 x4 x5 x6 x7 x8 b s))) := by
  have hb : Ideal.ofBits .f32 0xFF800000#32 = (⊥ : EReal) := by simp [Ideal.ofBits, Ideal.ieee]
  have h25 : val_main_v25 (F := Ideal) x0 x1 x2 x3 x4 x5 x6 x7 x8 (ix2 b s)
      = rowMax (scaledQuot (score x0 x1 x2 x3 x4 x5 x6 x7 x8 b s)) := by
    unfold val_main_v25 val_main_cst_1
    rw [hostMax_read]
    exact congrArg rowMax (funext fun t => scaled_read x0 x1 x2 x3 x4 x5 x6 x7 x8 b s t)
  rw [val_main_v27_apply, val_main_v26_apply, val_main_cst_2_apply, h25]
  simp only [Ideal.maximumf_def, Ideal.ofBits_def, hb]

/-- The exponential `%31` of the shifted quotient. -/
private theorem exp_read (x0 : ArrX) (x1 : ArrW1) (x2 : ArrB) (x3 : ArrW2) (x4 : ArrB) (x5 : ArrW1) (x6 : ArrB) (x7 : ArrW2) (x8 : ArrB) (b : Fin 8) (s t : Fin 2048) :
    val_main_v31 (F := Ideal) x0 x1 x2 x3 x4 x5 x6 x7 x8 (ix3 b s t)
      = Ideal.exp (scaledQuot (score x0 x1 x2 x3 x4 x5 x6 x7 x8 b s) t
          - max ⊥ (rowMax (scaledQuot (score x0 x1 x2 x3 x4 x5 x6 x7 x8 b s)))) := by
  have e : idx_main_v28 (idx_main_v29 (ix3 b s t)) = ix2 b s :=
    funext fun a => Fin.ext (by match a with | ⟨0, _⟩ => rfl | ⟨1, _⟩ => rfl)
  rw [val_main_v31_apply, val_main_v30_apply, val_main_v29_apply, val_main_v28_apply, e, shift_read, scaled_read]
  simp only [Ideal.hostUnary_exp_def, Ideal.subf_def]

/-- The sum `%32`, from 0, of the row's exponentials. -/
private theorem sum_read (x0 : ArrX) (x1 : ArrW1) (x2 : ArrB) (x3 : ArrW2) (x4 : ArrB) (x5 : ArrW1) (x6 : ArrB) (x7 : ArrW2) (x8 : ArrB) (b : Fin 8) (s : Fin 2048) :
    val_main_v32 (F := Ideal) x0 x1 x2 x3 x4 x5 x6 x7 x8 (ix2 b s)
      = 0 + ∑ u : Fin 2048, Ideal.exp (scaledQuot (score x0 x1 x2 x3 x4 x5 x6 x7 x8 b s) u
          - max ⊥ (rowMax (scaledQuot (score x0 x1 x2 x3 x4 x5 x6 x7 x8 b s)))) := by
  have e : ∀ k : Fin 2048, idx_main_v32 (ix2 b s) k = ix3 b s k := fun k =>
    funext fun a => Fin.ext (by match a with | ⟨0, _⟩ => rfl | ⟨1, _⟩ => rfl | ⟨2, _⟩ => rfl)
  rw [val_main_v32_apply, val_main_cst_3_apply]
  simp only [e, exp_read, Ideal.ofBits_def, Ideal.ofBits_zero_f32]

/-- The reference's result `%35` is the attention map with the quotients taken entry by entry. -/
theorem result_read (x0 : ArrX) (x1 : ArrW1) (x2 : ArrB) (x3 : ArrW2) (x4 : ArrB) (x5 : ArrW1) (x6 : ArrB) (x7 : ArrW2) (x8 : ArrB) :
    val_main_v35 (F := Ideal) x0 x1 x2 x3 x4 x5 x6 x7 x8 = attnQuot x0 x1 x2 x3 x4 x5 x6 x7 x8 := by
  funext i
  obtain ⟨b, s, t, rfl⟩ : ∃ (b : Fin 8) (s : Fin 2048) (t : Fin 2048), i = ix3 b s t := ⟨i 0, i 1, i 2, eq_ix3 i⟩
  have e : idx_main_v33 (idx_main_v34 (ix3 b s t)) = ix2 b s :=
    funext fun a => Fin.ext (by match a with | ⟨0, _⟩ => rfl | ⟨1, _⟩ => rfl)
  rw [val_main_v35_apply, val_main_v34_apply, val_main_v33_apply, e, sum_read, exp_read]
  simp only [Ideal.hostDivf_def]
  rfl

end Cert.Attn.Ref

end
-- ==== Proof.PreDecode.lean ====
/-
  What the precondition says of the argument arrays.

  The printed predicate is a conjunction of ten tests, each an `and` over a whole array: nine say that an
  argument's absolute values are below +∞, so every entry of every argument is a real number; the tenth computes
  the scores exactly as the reference does, takes each row's maximum and says that none of them is zero.
-/
import proofs.«403823_j68401649156342_3_alg».proof.Proof.Spec
import proofs.«403823_j68401649156342_3_alg».proof.Proof.RefRead
import proofs.«403823_j68401649156342_3_alg».proof.Proof.Gen.Pre_finite_inputs
import Idealize.ShloMosaic.Lib.ReduceAll
import Idealize.ShloMosaic.Lib.StableHlo.Predicate

noncomputable section

namespace Cert.Attn.Pre

open Idealize.ShloMosaic Idealize.ShloMosaic.ValueIdx Cert.Alg Cert.Attn

/-- The scalar shape has one index. -/
private instance : Subsingleton Cert.Pre_finite_inputs.S_.Idx := ⟨fun _ _ => funext fun d => d.elim0⟩

private theorem ofBool_eq_one {c : Bool} : BitVec.ofBool c = 1#1 ↔ c = true := by cases c <;> decide

/-- The f32 word 0x7F800000 is +∞. -/
private theorem inf_word : Ideal.ofBits .f32 0x7F800000#32 = ⊤ := by simp [Ideal.ofBits, Ideal.ieee]

/-- An entry whose absolute value tests below the word of +∞ is a real number. -/
private theorem isReal_of_test (x : EReal)
    (h : FloatOps.cmpf (F := Ideal) (φ := .f32) .olt (FloatOps.hostAbsf (F := Ideal) (φ := .f32) x)
          (FloatOps.ofBits (F := Ideal) .f32 0x7F800000#32) = 1#1) : IsReal x := by
  rw [Ideal.cmpf_def, Ideal.hostAbsf_def, Ideal.absf_def, Ideal.ofBits_def, inf_word] at h
  simp only [Ideal.cmp, ofBool_eq_one, decide_eq_true_eq] at h
  exact isReal_of_abs_lt_top h

/-- An entry that tests unequal to the word of zero is not zero. -/
private theorem ne_zero_of_test (x : EReal)
    (h : FloatOps.cmpf (F := Ideal) (φ := .f32) .une x (FloatOps.ofBits (F := Ideal) .f32 0x00000000#32) = 1#1) : x ≠ 0 := by
  rw [Ideal.cmpf_def, Ideal.ofBits_def, Ideal.ofBits_zero_f32] at h
  simp only [Ideal.cmp, ofBool_eq_one, decide_eq_true_eq] at h
  exact h

/-- One finiteness test: where "every absolute value is below +∞" holds of an array, every entry is a real number. -/
private theorem all_real {s : Shape} {axes : List (Fin s.rank)} (a : s.Idx → EReal)
    (hb : Cert.Pre_finite_inputs.S_.BroadcastsInDim s (![] : Fin 0 → Fin s.rank)) (hr : s.ReducesTo axes Cert.Pre_finite_inputs.S_)
    (hu : 0 < Cert.Pre_finite_inputs.S_.numel)
    (e : Host.reduce IntOp.andi
          (cmpf (F := Ideal) (φ := .f32) .olt (Host.absf a) (broadcastInDim s ![] hb (constant Cert.Pre_finite_inputs.S_ .f32 0x7F800000#32)))
          (constantI Cert.Pre_finite_inputs.S_ 1 1#1) hr hu ix0 = 1#1) (i : s.Idx) : IsReal (a i) :=
  isReal_of_test (a i) (Host.reduce_andi_all _ _ hr hu ix0 e i)

/-- The test "no entry is zero" over a whole array: where it holds no entry is zero. -/
private theorem all_ne_zero {s : Shape} {axes : List (Fin s.rank)} (A : s.Idx → EReal)
    (hb : Cert.Pre_finite_inputs.S_.BroadcastsInDim s (![] : Fin 0 → Fin s.rank)) (hr : s.ReducesTo axes Cert.Pre_finite_inputs.S_)
    (hu : 0 < Cert.Pre_finite_inputs.S_.numel)
    (e : Host.reduce IntOp.andi
          (cmpf (F := Ideal) (φ := .f32) .une A (broadcastInDim s ![] hb (constant Cert.Pre_finite_inputs.S_ .f32 0x00000000#32)))
          (constantI Cert.Pre_finite_inputs.S_ 1 1#1) hr hu ix0 = 1#1) (i : s.Idx) : A i ≠ 0 :=
  ne_zero_of_test (A i) (Host.reduce_andi_all _ _ hr hu ix0 e i)

/-- Under the precondition every entry of every argument array is a real number. -/
theorem inputs_real (x0 : ArrX) (x1 : ArrW1) (x2 : ArrB) (x3 : ArrW2) (x4 : ArrB) (x5 : ArrW1) (x6 : ArrB) (x7 : ArrW2) (x8 : ArrB)
    (h : Cert.Pre_finite_inputs.fn (F := Ideal) x0 x1 x2 x3 x4 x5 x6 x7 x8 = fun _ => 1#1) :
    (∀ i, IsReal (x0 i)) ∧ (∀ i, IsReal (x1 i)) ∧ (∀ i, IsReal (x2 i)) ∧ (∀ i, IsReal (x3 i)) ∧ (∀ i, IsReal (x4 i))
      ∧ (∀ i, IsReal (x5 i)) ∧ (∀ i, IsReal (x6 i)) ∧ (∀ i, IsReal (x7 i)) ∧ (∀ i, IsReal (x8 i)) := by
  have e := congrFun h ix0
  unfold Cert.Pre_finite_inputs.fn Cert.Pre_finite_inputs.fn_part1 Cert.Pre_finite_inputs.fn_part2 Cert.Pre_finite_inputs.fn_part3 at e
  dsimp only at e
  obtain ⟨e, -⟩ := IntOp.andi_eq_one.1 e
  obtain ⟨e, e8⟩ := IntOp.andi_eq_one.1 e
  obtain ⟨e, e7⟩ := IntOp.andi_eq_one.1 e
  obtain ⟨e, e6⟩ := IntOp.andi_eq_one.1 e
  obtain ⟨e, e5⟩ := IntOp.andi_eq_one.1 e
  obtain ⟨e, e4⟩ := IntOp.andi_eq_one.1 e
  obtain ⟨e, e3⟩ := IntOp.andi_eq_one.1 e
  obtain ⟨e, e2⟩ := IntOp.andi_eq_one.1 e
  obtain ⟨e0, e1⟩ := IntOp.andi_eq_one.1 e
  exact ⟨all_real x0 _ _ _ e0, all_real x1 _ _ _ e1, all_real x2 _ _ _ e2, all_real x3 _ _ _ e3, all_real x4 _ _ _ e4,
    all_real x5 _ _ _ e5, all_real x6 _ _ _ e6, all_real x7 _ _ _ e7, all_real x8 _ _ _ e8⟩

/-- Under the precondition no row of scores has maximum zero. -/
theorem rowmax_ne_zero (x0 : ArrX) (x1 : ArrW1) (x2 : ArrB) (x3 : ArrW2) (x4 : ArrB) (x5 : ArrW1) (x6 : ArrB) (x7 : ArrW2) (x8 : ArrB)
    (h : Cert.Pre_finite_inputs.fn (F := Ideal) x0 x1 x2 x3 x4 x5 x6 x7 x8 = fun _ => 1#1) (b : Fin 8) (s : Fin 2048) :
    rowMax (score x0 x1 x2 x3 x4 x5 x6 x7 x8 b s) ≠ 0 := by
  have e := congrFun h ix0
  unfold Cert.Pre_finite_inputs.fn Cert.Pre_finite_inputs.fn_part1 Cert.Pre_finite_inputs.fn_part2 Cert.Pre_finite_inputs.fn_part3 at e
  dsimp only at e
  obtain ⟨-, e⟩ := IntOp.andi_eq_one.1 e
  have hA := all_ne_zero _ _ _ _ e (ix2 b s)
  -- the row maxima the test reads are the reference's own: the same operations on the same arguments
  rw [← Ref.rowmax_read]
  unfold
    Cert.ReferenceIdeal.Read.val_main_v19 Cert.ReferenceIdeal.Read.val_main_cst Cert.ReferenceIdeal.Read.val_main_v18 Cert.ReferenceIdeal.Read.val_main_v17
    Cert.ReferenceIdeal.Read.val_main_v16 Cert.ReferenceIdeal.Read.val_main_v15 Cert.ReferenceIdeal.Read.val_main_v14 Cert.ReferenceIdeal.Read.val_main_v13
    Cert.ReferenceIdeal.Read.val_main_call1_v0 Cert.ReferenceIdeal.Read.val_main_call1_cst Cert.ReferenceIdeal.Read.val_main_v12 Cert.ReferenceIdeal.Read.val_main_v11
    Cert.ReferenceIdeal.Read.val_main_v10 Cert.ReferenceIdeal.Read.val_main_v9 Cert.ReferenceIdeal.Read.val_main_v8 Cert.ReferenceIdeal.Read.val_main_v7
    Cert.ReferenceIdeal.Read.val_main_v6 Cert.ReferenceIdeal.Read.val_main_v5 Cert.ReferenceIdeal.Read.val_main_v4 Cert.ReferenceIdeal.Read.val_main_call0_v0
    Cert.ReferenceIdeal.Read.val_main_call0_cst Cert.ReferenceIdeal.Read.val_main_v3 Cert.ReferenceIdeal.Read.val_main_v2 Cert.ReferenceIdeal.Read.val_main_v1
    Cert.ReferenceIdeal.Read.val_main_v0
  exact hA

end Cert.Attn.Pre

end
-- ==== Proof.KPieces.lean ====
/-
  What one grid point's body leaves, as the body's own arithmetic.

  At a batch's first point (case A) the body stores the batch's keys into the scratch and then reads them back for the
  products; at the batch's other points (case B) it stores nothing there and reads what the point before left. In both
  it loads a tile of 512 of the batch's rows (the rows from 512·q on, q the point's second coordinate), and stores the
  block of normalised, softmaxed products. Each found piece, read back, is the payload term over the loaded blocks.
-/
import proofs.«403823_j68401649156342_3_alg».proof.Proof.Gen.KernelIdeal.Frame
import Idealize.ShloMosaic.Lib.Pipeline.Value

set_option maxRecDepth 16384

noncomputable section

namespace Cert.Attn.Ker

open Idealize.ShloMosaic Idealize.ShloMosaic.TcCoe Idealize.ShloMosaic.Tactic Idealize.SL Idealize.SL.Sem
open Cert.KernelIdeal Cert.KernelIdeal.Gen

variable {F : FTy → Type} [FloatOps F]

theorem hz1 : (![0] : Fin 1 → Nat) = fun _ => 0 := by funext a; fin_cases a; rfl
theorem hz2 : (![0, 0] : Fin 2 → Nat) = fun _ => 0 := by funext a; fin_cases a <;> rfl
theorem hz3 : (![0, 0, 0] : Fin 3 → Nat) = fun _ => 0 := by funext a; fin_cases a <;> rfl

/-- The tile of 512 rows the body loads from the batch's block: rows `512·q …`, `q` the point's second coordinate. -/
def xtile (i : grid0.Coords) (x0 : Vec F S1x2048x128 .f32) : Vec F S1x512x128 .f32 :=
  View.ld x0 (Rect.unit (s := S1x2048x128) (k0_off1 i) S1x512x128.size (k0_off1_inb i))

/-- Case A leaves the batch's keys in the scratch. -/
theorem sout_A (c : Dev nD) (i : grid0.Coords) (arg2 : Memref sig .tc .vmem S1x2048x128 .f32) (harg2 : arg2.IsWhole) (arg3 : Memref sig .tc .vmem S128x256 .f32) (harg3 : arg3.IsWhole) (arg4 : Memref sig .tc .vmem S256 .f32) (harg4 : arg4.IsWhole) (arg5 : Memref sig .tc .vmem S256x256 .f32) (harg5 : arg5.IsWhole) (arg6 : Memref sig .tc .vmem S256 .f32) (harg6 : arg6.IsWhole) (arg7 : Memref sig .tc .vmem S128x256 .f32) (harg7 : arg7.IsWhole) (arg8 : Memref sig .tc .vmem S256 .f32) (harg8 : arg8.IsWhole) (arg9 : Memref sig .tc .vmem S256x256 .f32) (harg9 : arg9.IsWhole) (arg10 : Memref sig .tc .vmem S256 .f32) (harg10 : arg10.IsWhole) (arg11 : Memref sig .tc .vmem S1x512x2048 .f32) (harg11 : arg11.IsWhole) (arg12 : Memref sig .tc .vmem S2048x256 .bf16) (harg12 : arg12.IsWhole) (hc0 : cond0_0 i) (x0 : Vec F S1x2048x128 .f32) (x1 : Vec F S128x256 .f32) (x2 : Vec F S256 .f32) (x3 : Vec F S256x256 .f32) (x4 : Vec F S256 .f32) (x5 : Vec F S128x256 .f32) (x6 : Vec F S256 .f32) (x7 : Vec F S256x256 .f32) (x8 : Vec F S256 .f32) :
    sout0_A_0 c i arg2 harg2 arg3 harg3 arg4 harg4 arg5 harg5 arg6 harg6 arg7 harg7 arg8 harg8 arg9 harg9 arg10 harg10 arg11 harg11 arg12 harg12 hc0 x0 x1 x2 x3 x4 x5 x6 x7 x8 = k0_pay2 x0 x5 x6 x7 x8 := by
  unfold sout0_A_0
  rw [View.read_writes_eq_canon _ _ _ (scover0_A_0 c i arg2 harg2 arg3 harg3 arg4 harg4 arg5 harg5 arg6 harg6 arg7 harg7 arg8 harg8 arg9 harg9 arg10 harg10 arg11 harg11 arg12 harg12 hc0 x0 x1 x2 x3 x4 x5 x6 x7 x8)]
  unfold kernelRun0_A
  dsimp only
  sl_unfold_words
  rw [View.canon_unit_zero (S := S2048x256) hz2]
  simp only [View.readAt_eq_ld, harg2.read_unread, harg3.read_unread, harg4.read_unread, harg5.read_unread, harg6.read_unread, harg7.read_unread, harg8.read_unread, harg9.read_unread, harg10.read_unread, harg12.read_unread, View.ld_unit_zero (S := S1x2048x128) hz3, View.ld_unit_zero (S := S128x256) hz2, View.ld_unit_zero (S := S256x256) hz2, View.ld_unit_zero (S := S256) hz1, View.ld_unit_zero (S := S2048x256) hz2]

/-- Case A's output block: the tail over the tile's queries and the keys it has just stored. -/
theorem out_A (c : Dev nD) (i : grid0.Coords) (arg2 : Memref sig .tc .vmem S1x2048x128 .f32) (harg2 : arg2.IsWhole) (arg3 : Memref sig .tc .vmem S128x256 .f32) (harg3 : arg3.IsWhole) (arg4 : Memref sig .tc .vmem S256 .f32) (harg4 : arg4.IsWhole) (arg5 : Memref sig .tc .vmem S256x256 .f32) (harg5 : arg5.IsWhole) (arg6 : Memref sig .tc .vmem S256 .f32) (harg6 : arg6.IsWhole) (arg7 : Memref sig .tc .vmem S128x256 .f32) (harg7 : arg7.IsWhole) (arg8 : Memref sig .tc .vmem S256 .f32) (harg8 : arg8.IsWhole) (arg9 : Memref sig .tc .vmem S256x256 .f32) (harg9 : arg9.IsWhole) (arg10 : Memref sig .tc .vmem S256 .f32) (harg10 : arg10.IsWhole) (arg11 : Memref sig .tc .vmem S1x512x2048 .f32) (harg11 : arg11.IsWhole) (arg12 : Memref sig .tc .vmem S2048x256 .bf16) (harg12 : arg12.IsWhole) (hc0 : cond0_0 i) (x0 : Vec F S1x2048x128 .f32) (x1 : Vec F S128x256 .f32) (x2 : Vec F S256 .f32) (x3 : Vec F S256x256 .f32) (x4 : Vec F S256 .f32) (x5 : Vec F S128x256 .f32) (x6 : Vec F S256 .f32) (x7 : Vec F S256x256 .f32) (x8 : Vec F S256 .f32) :
    out0_A_9 c i arg2 harg2 arg3 harg3 arg4 harg4 arg5 harg5 arg6 harg6 arg7 harg7 arg8 harg8 arg9 harg9 arg10 harg10 arg11 harg11 arg12 harg12 hc0 x0 x1 x2 x3 x4 x5 x6 x7 x8
      = k0_pay1 (k0_pay3 (xtile i x0) x1 x2 x3 x4 (k0_pay2 x0 x5 x6 x7 x8)) (k0_pay4 (xtile i x0) x1 x2 x3 x4 (k0_pay2 x0 x5 x6 x7 x8)) := by
  unfold out0_A_9
  rw [View.read_writes_eq_canon _ _ _ (cover0_A_9 c i arg2 harg2 arg3 harg3 arg4 harg4 arg5 harg5 arg6 harg6 arg7 harg7 arg8 harg8 arg9 harg9 arg10 harg10 arg11 harg11 arg12 harg12 hc0 x0 x1 x2 x3 x4 x5 x6 x7 x8)]
  unfold kernelRun0_A
  dsimp only
  sl_unfold_words
  rw [View.canon_unit_zero (S := S1x512x2048) hz3]
  simp only [View.readAt_eq_ld, harg2.read_unread, harg3.read_unread, harg4.read_unread, harg5.read_unread, harg6.read_unread, harg7.read_unread, harg8.read_unread, harg9.read_unread, harg10.read_unread, harg12.read_unread, View.ld_unit_zero (S := S1x2048x128) hz3, View.ld_unit_zero (S := S128x256) hz2, View.ld_unit_zero (S := S256x256) hz2, View.ld_unit_zero (S := S256) hz1, View.ld_unit_zero (S := S2048x256) hz2, View.readCov_unit_zero (S := S2048x256) _ hz2]
  rfl

/-- Case B's output block: the tail over the tile's queries and the keys the point before left. -/
theorem out_B (c : Dev nD) (i : grid0.Coords) (arg2 : Memref sig .tc .vmem S1x2048x128 .f32) (harg2 : arg2.IsWhole) (arg3 : Memref sig .tc .vmem S128x256 .f32) (harg3 : arg3.IsWhole) (arg4 : Memref sig .tc .vmem S256 .f32) (harg4 : arg4.IsWhole) (arg5 : Memref sig .tc .vmem S256x256 .f32) (harg5 : arg5.IsWhole) (arg6 : Memref sig .tc .vmem S256 .f32) (harg6 : arg6.IsWhole) (arg7 : Memref sig .tc .vmem S128x256 .f32) (harg7 : arg7.IsWhole) (arg8 : Memref sig .tc .vmem S256 .f32) (harg8 : arg8.IsWhole) (arg9 : Memref sig .tc .vmem S256x256 .f32) (harg9 : arg9.IsWhole) (arg10 : Memref sig .tc .vmem S256 .f32) (harg10 : arg10.IsWhole) (arg11 : Memref sig .tc .vmem S1x512x2048 .f32) (harg11 : arg11.IsWhole) (arg12 : Memref sig .tc .vmem S2048x256 .bf16) (harg12 : arg12.IsWhole) (hc0 : ¬cond0_0 i) (x0 : Vec F S1x2048x128 .f32) (x1 : Vec F S128x256 .f32) (x2 : Vec F S256 .f32) (x3 : Vec F S256x256 .f32) (x4 : Vec F S256 .f32) (x5 : Vec F S128x256 .f32) (x6 : Vec F S256 .f32) (x7 : Vec F S256x256 .f32) (x8 : Vec F S256 .f32) (xs0 : Vec F S2048x256 .bf16) :
    out0_B_9 c i arg2 harg2 arg3 harg3 arg4 harg4 arg5 harg5 arg6 harg6 arg7 harg7 arg8 harg8 arg9 harg9 arg10 harg10 arg11 harg11 arg12 harg12 hc0 x0 x1 x2 x3 x4 x5 x6 x7 x8 xs0
      = k0_pay1 (k0_pay3 (xtile i x0) x1 x2 x3 x4 xs0) (k0_pay4 (xtile i x0) x1 x2 x3 x4 xs0) := by
  unfold out0_B_9
  rw [View.read_writes_eq_canon _ _ _ (cover0_B_9 c i arg2 harg2 arg3 harg3 arg4 harg4 arg5 harg5 arg6 harg6 arg7 harg7 arg8 harg8 arg9 harg9 arg10 harg10 arg11 harg11 arg12 harg12 hc0 x0 x1 x2 x3 x4 x5 x6 x7 x8 xs0)]
  unfold kernelRun0_B
  dsimp only
  sl_unfold_words
  rw [View.canon_unit_zero (S := S1x512x2048) hz3]
  simp only [View.readAt_eq_ld, harg2.read_unread, harg3.read_unread, harg4.read_unread, harg5.read_unread, harg6.read_unread, harg7.read_unread, harg8.read_unread, harg9.read_unread, harg10.read_unread, harg12.read_unread, View.ld_unit_zero (S := S1x2048x128) hz3, View.ld_unit_zero (S := S128x256) hz2, View.ld_unit_zero (S := S256x256) hz2, View.ld_unit_zero (S := S256) hz1, View.ld_unit_zero (S := S2048x256) hz2]
  rfl

end Cert.Attn.Ker

end
-- ==== Proof.KBlocks.lean ====
/-
  The windows' blocks, read off the argument arrays.

  The grid has 32 points; point `t` is batch `t / 4`, tile `t % 4`. The rows window stages batch `t / 4`'s
  `[1, 2048, 128]` block of the first argument; the eight weight and bias windows stage their whole arrays at every
  point; the output window's block at `t` is rows `512·(t % 4) …` of batch `t / 4`. The tile of rows the body loads
  at `t` is rows `512·(t % 4) …` of the batch's block.
-/
import proofs.«403823_j68401649156342_3_alg».proof.Proof.Gen.KernelIdeal.Value
import proofs.«403823_j68401649156342_3_alg».proof.Proof.KPieces
import Idealize.ShloMosaic.Lib.ValueIdx

set_option maxRecDepth 16384

noncomputable section

namespace Cert.Attn.Ker

open Idealize.ShloMosaic Idealize.ShloMosaic.TcCoe Idealize.ShloMosaic.ValueIdx Idealize.SL.Sem
open Cert.KernelIdeal Cert.KernelIdeal.Gen

variable (m : (ℓ : Loc nD τ sig) → Buf (Elt Ideal) ℓ)

/-- The printed index maps and the grid's second coordinate, decided over the 32 points. -/
theorem idx_facts : ∀ t : Fin cfg0.N,
    win0_0.index t (0 : Fin 3) = t.val / 4 ∧ win0_0.index t (1 : Fin 3) = 0 ∧ win0_0.index t (2 : Fin 3) = 0
    ∧ win0_1.index t (0 : Fin 2) = 0 ∧ win0_1.index t (1 : Fin 2) = 0
    ∧ win0_2.index t (0 : Fin 1) = 0
    ∧ win0_3.index t (0 : Fin 2) = 0 ∧ win0_3.index t (1 : Fin 2) = 0
    ∧ win0_4.index t (0 : Fin 1) = 0
    ∧ win0_5.index t (0 : Fin 2) = 0 ∧ win0_5.index t (1 : Fin 2) = 0
    ∧ win0_6.index t (0 : Fin 1) = 0
    ∧ win0_7.index t (0 : Fin 2) = 0 ∧ win0_7.index t (1 : Fin 2) = 0
    ∧ win0_8.index t (0 : Fin 1) = 0
    ∧ win0_9.index t (0 : Fin 3) = t.val / 4 ∧ win0_9.index t (1 : Fin 3) = t.val % 4 ∧ win0_9.index t (2 : Fin 3) = 0
    ∧ (grid0.coords t 1).val = t.val % 4 :=
  (by decide +kernel : ∀ t : Fin grid0.N, _)

theorem batch_lt (t : Fin cfg0.N) : t.val / 4 < 8 := by
  have h := lt_of_lt_of_eq t.isLt (show cfg0.N = 32 from N_0); omega

theorem row_lt (t : Fin cfg0.N) (sl : Fin 512) : 512 * (t.val % 4) + sl.val < 2048 := by
  have := sl.isLt; omega

/-- The rows window's block at point `t` is batch `t / 4` of the first argument. -/
theorem xblk_apply (c : Dev nD) (t : Fin cfg0.N) (r : Fin 2048) (i : Fin 128) :
    (iblk m c 0 t : Vec Ideal S1x2048x128 .f32) (ix3 0 r i) = V m c main_arg0 (ix3 ⟨t.val / 4, batch_lt t⟩ r i) := by
  have hf := idx_facts t
  show V m c main_arg0 (((cfg0.win 0).blk t).view.emb (ix3 0 r i)) = V m c main_arg0 (ix3 ⟨t.val / 4, batch_lt t⟩ r i)
  refine congrArg (V m c main_arg0) ?_
  funext a; apply Fin.ext
  match a with
  | ⟨0, _⟩ => show win0_0.index t (0 : Fin 3) * 1 + 1 * 0 = t.val / 4; omega
  | ⟨1, _⟩ => show win0_0.index t (1 : Fin 3) * 2048 + 1 * r.val = r.val; omega
  | ⟨2, _⟩ => show win0_0.index t (2 : Fin 3) * 128 + 1 * i.val = i.val; omega

/-- Window 1 stages its whole array at every point. -/
theorem wblk1_eq (c : Dev nD) (t : Fin cfg0.N) : (iblk m c 1 t : Vec Ideal S128x256 .f32) = V m c main_arg1 := by
  have hf := idx_facts t
  funext y
  show V m c main_arg1 (((cfg0.win 1).blk t).view.emb y) = V m c main_arg1 y
  refine congrArg (V m c main_arg1) ?_
  funext a; apply Fin.ext
  match a with
  | ⟨0, _⟩ => show win0_1.index t (0 : Fin 2) * 128 + 1 * (y 0).val = (y 0).val; omega
  | ⟨1, _⟩ => show win0_1.index t (1 : Fin 2) * 256 + 1 * (y 1).val = (y 1).val; omega

/-- Window 2 stages its whole array at every point. -/
theorem wblk2_eq (c : Dev nD) (t : Fin cfg0.N) : (iblk m c 2 t : Vec Ideal S256 .f32) = V m c main_arg2 := by
  have hf := idx_facts t
  funext y
  show V m c main_arg2 (((cfg0.win 2).blk t).view.emb y) = V m c main_arg2 y
  refine congrArg (V m c main_arg2) ?_
  funext a; apply Fin.ext
  match a with
  | ⟨0, _⟩ => show win0_2.index t (0 : Fin 1) * 256 + 1 * (y 0).val = (y 0).val; omega

/-- Window 3 stages its whole array at every point. -/
theorem wblk3_eq (c : Dev nD) (t : Fin cfg0.N) : (iblk m c 3 t : Vec Ideal S256x256 .f32) = V m c main_arg3 := by
  have hf := idx_facts t
  funext y
  show V m c main_arg3 (((cfg0.win 3).blk t).view.emb y) = V m c main_arg3 y
  refine congrArg (V m c main_arg3) ?_
  funext a; apply Fin.ext
  match a with
  | ⟨0, _⟩ => show win0_3.index t (0 : Fin 2) * 256 + 1 * (y 0).val = (y 0).val; omega
  | ⟨1, _⟩ => show win0_3.index t (1 : Fin 2) * 256 + 1 * (y 1).val = (y 1).val; omega

/-- Window 4 stages its whole array at every point. -/
theorem wblk4_eq (c : Dev nD) (t : Fin cfg0.N) : (iblk m c 4 t : Vec Ideal S256 .f32) = V m c main_arg4 := by
  have hf := idx_facts t
  funext y
  show V m c main_arg4 (((cfg0.win 4).blk t).view.emb y) = V m c main_arg4 y
  refine congrArg (V m c main_arg4) ?_
  funext a; apply Fin.ext
  match a with
  | ⟨0, _⟩ => show win0_4.index t (0 : Fin 1) * 256 + 1 * (y 0).val = (y 0).val; omega

/-- Window 5 stages its whole array at every point. -/
theorem wblk5_eq (c : Dev nD) (t : Fin cfg0.N) : (iblk m c 5 t : Vec Ideal S128x256 .f32) = V m c main_arg5 := by
  have hf := idx_facts t
  funext y
  show V m c main_arg5 (((cfg0.win 5).blk t).view.emb y) = V m c main_arg5 y
  refine congrArg (V m c main_arg5) ?_
  funext a; apply Fin.ext
  match a with
  | ⟨0, _⟩ => show win0_5.index t (0 : Fin 2) * 128 + 1 * (y 0).val = (y 0).val; omega
  | ⟨1, _⟩ => show win0_5.index t (1 : Fin 2) * 256 + 1 * (y 1).val = (y 1).val; omega

/-- Window 6 stages its whole array at every point. -/
theorem wblk6_eq (c : Dev nD) (t : Fin cfg0.N) : (iblk m c 6 t : Vec Ideal S256 .f32) = V m c main_arg6 := by
  have hf := idx_facts t
  funext y
  show V m c main_arg6 (((cfg0.win 6).blk t).view.emb y) = V m c main_arg6 y
  refine congrArg (V m c main_arg6) ?_
  funext a; apply Fin.ext
  match a with
  | ⟨0, _⟩ => show win0_6.index t (0 : Fin 1) * 256 + 1 * (y 0).val = (y 0).val; omega

/-- Window 7 stages its whole array at every point. -/
theorem wblk7_eq (c : Dev nD) (t : Fin cfg0.N) : (iblk m c 7 t : Vec Ideal S256x256 .f32) = V m c main_arg7 := by
  have hf := idx_facts t
  funext y
  show V m c main_arg7 (((cfg0.win 7).blk t).view.emb y) = V m c main_arg7 y
  refine congrArg (V m c main_arg7) ?_
  funext a; apply Fin.ext
  match a with
  | ⟨0, _⟩ => show win0_7.index t (0 : Fin 2) * 256 + 1 * (y 0).val = (y 0).val; omega
  | ⟨1, _⟩ => show win0_7.index t (1 : Fin 2) * 256 + 1 * (y 1).val = (y 1).val; omega

/-- Window 8 stages its whole array at every point. -/
theorem wblk8_eq (c : Dev nD) (t : Fin cfg0.N) : (iblk m c 8 t : Vec Ideal S256 .f32) = V m c main_arg8 := by
  have hf := idx_facts t
  funext y
  show V m c main_arg8 (((cfg0.win 8).blk t).view.emb y) = V m c main_arg8 y
  refine congrArg (V m c main_arg8) ?_
  funext a; apply Fin.ext
  match a with
  | ⟨0, _⟩ => show win0_8.index t (0 : Fin 1) * 256 + 1 * (y 0).val = (y 0).val; omega

/-- The tile of rows the body loads at point `t`: rows `512·(t % 4) + sl` of batch `t / 4`. -/
theorem xtile_apply (c : Dev nD) (t : Fin cfg0.N) (sl : Fin 512) (i : Fin 128) :
    xtile (grid0.coords t) (iblk m c 0 t : Vec Ideal S1x2048x128 .f32) (ix3 0 sl i)
      = V m c main_arg0 (ix3 ⟨t.val / 4, batch_lt t⟩ ⟨512 * (t.val % 4) + sl.val, row_lt t sl⟩ i) := by
  have hf := idx_facts t
  have hr : 512 * (grid0.coords t 1).val + sl.val < 2048 := by have := sl.isLt; omega
  have e : xtile (grid0.coords t) (iblk m c 0 t : Vec Ideal S1x2048x128 .f32) (ix3 0 sl i)
      = (iblk m c 0 t : Vec Ideal S1x2048x128 .f32) (ix3 0 ⟨512 * (grid0.coords t 1).val + sl.val, hr⟩ i) := by
    unfold xtile
    show (iblk m c 0 t : Vec Ideal S1x2048x128 .f32) _ = _
    refine congrArg (iblk m c 0 t : Vec Ideal S1x2048x128 .f32) ?_
    funext a; apply Fin.ext
    have ho := k0_off1_eq (grid0.coords t)
    match a with
    | ⟨0, _⟩ => show (k0_off1 (grid0.coords t)) (0 : Fin 3) + 1 * 0 = 0; rw [ho]; rfl
    | ⟨1, _⟩ => show (k0_off1 (grid0.coords t)) (1 : Fin 3) + 1 * sl.val = 512 * (grid0.coords t 1).val + sl.val; rw [ho]; show 512 * (grid0.coords t 1).val + 1 * sl.val = _; omega
    | ⟨2, _⟩ => show (k0_off1 (grid0.coords t)) (2 : Fin 3) + 1 * i.val = i.val; rw [ho]; show 0 + 1 * i.val = i.val; omega
  rw [e, xblk_apply]
  refine congrArg (V m c main_arg0) ?_
  funext a; apply Fin.ext
  match a with
  | ⟨0, _⟩ => rfl
  | ⟨1, _⟩ => show 512 * (grid0.coords t 1).val + sl.val = 512 * (t.val % 4) + sl.val; omega
  | ⟨2, _⟩ => rfl

end Cert.Attn.Ker

end
-- ==== Proof.KDefs.lean ====
/-
  The perceptron on a tile of rows, as the kernel sees it.

  The kernel's input window holds one batch's rows as a `[1, R, 128]` block (all 2048 rows for the keys, a tile of
  512 of them for the queries). `mlpRow` is the perceptron's output at row `r` of such a block; where the block's row
  `r` is the array's row `(b, s)` it is the specification's `mlp … b s`.
-/
import proofs.«403823_j68401649156342_3_alg».proof.Proof.Spec

noncomputable section

namespace Cert.Attn

open Idealize.ShloMosaic Idealize.ShloMosaic.ValueIdx
open scoped BigOperators

/-- The perceptron's output at row `r` of a `[1, R, 128]` block of rows. -/
def mlpRow {R : ℕ} (xt : (⟨3, ![1, R, 128]⟩ : Shape).Idx → EReal) (W1 : ArrW1) (b1 : ArrB) (W2 : ArrW2) (b2 : ArrB)
    (r : Fin R) (d : Fin 256) : EReal :=
  (∑ h : Fin 256, max ((∑ i : Fin 128, xt (ix3 0 r i) * W1 (ix2 i h)) + b1 (ix1 h)) 0 * W2 (ix2 h d)) + b2 (ix1 d)

/-- Where the block's row `r` is the array's row `(b, s)`, that is the specification's perceptron there. -/
theorem mlpRow_eq_mlp {R : ℕ} (xt : (⟨3, ![1, R, 128]⟩ : Shape).Idx → EReal) (x : ArrX) (W1 : ArrW1) (b1 : ArrB) (W2 : ArrW2) (b2 : ArrB)
    (r : Fin R) (b : Fin 8) (s : Fin 2048) (hrow : ∀ i : Fin 128, xt (ix3 0 r i) = x (ix3 b s i)) (d : Fin 256) :
    mlpRow xt W1 b1 W2 b2 r d = mlp x W1 b1 W2 b2 b s d := by
  unfold mlpRow mlp hidden
  simp only [hrow]

end Cert.Attn

end
-- ==== Proof.KPay2.lean ====
/-
  The keys the kernel stores in its scratch, read at an entry.

  At a batch's first grid point the body casts the batch's rows and the key weights to bf16 (the identity on the
  extended reals), multiplies, adds the bias, applies ReLU, multiplies by the second weights and adds the second bias:
  the perceptron of every row of the block.
-/
import proofs.«403823_j68401649156342_3_alg».proof.Proof.KDefs
import proofs.«403823_j68401649156342_3_alg».proof.Proof.Gen.KernelIdeal.Skeleton
import Idealize.ShloMosaic.Lib.Pipeline.Value
import Idealize.ShloMosaic.Lib.ValueIdx
import Idealize.ShloMosaic.Lib.ValueLayout
import Idealize.ShloMosaic.PureOps.Ideal.Laws

noncomputable section

namespace Cert.Attn.Ker

open Idealize.ShloMosaic Idealize.ShloMosaic.ValueIdx Cert.Alg Cert.Attn
open Cert.KernelIdeal Cert.KernelIdeal.Gen
open scoped BigOperators

/-! ### The two products: each operand index by its coordinates -/

private theorem lhs_mm1_0 (i : S2048x256.Idx) (q : dot_S2048x128_S128x256_S2048x256_1_0_0_1_n_n.contr.Idx) :
    (dot_S2048x128_S128x256_S2048x256_1_0_0_1_n_n.lhsIdx i q 0).val = (i 0).val := by
  unfold DotDims.lhsIdx
  rw [dif_neg (show ¬(0 : Fin S2048x128.rank) ∈ dot_S2048x128_S128x256_S2048x256_1_0_0_1_n_n.lhsBatch by decide), dif_pos (show (0 : Fin S2048x128.rank) ∈ dot_S2048x128_S128x256_S2048x256_1_0_0_1_n_n.lhsNonContracting by decide)]
  rfl
private theorem lhs_mm1_1 (i : S2048x256.Idx) (q : dot_S2048x128_S128x256_S2048x256_1_0_0_1_n_n.contr.Idx) :
    (dot_S2048x128_S128x256_S2048x256_1_0_0_1_n_n.lhsIdx i q 1).val = (q ⟨0, by decide⟩).val :=
  dot_S2048x128_S128x256_S2048x256_1_0_0_1_n_n.lhsIdx_val_of_single rfl i q
private theorem rhs_mm1_0 (i : S2048x256.Idx) (q : dot_S2048x128_S128x256_S2048x256_1_0_0_1_n_n.contr.Idx) :
    (dot_S2048x128_S128x256_S2048x256_1_0_0_1_n_n.rhsIdx i q 0).val = (q ⟨0, by decide⟩).val :=
  dot_S2048x128_S128x256_S2048x256_1_0_0_1_n_n.rhsIdx_val_of_single rfl i q
private theorem rhs_mm1_1 (i : S2048x256.Idx) (q : dot_S2048x128_S128x256_S2048x256_1_0_0_1_n_n.contr.Idx) :
    (dot_S2048x128_S128x256_S2048x256_1_0_0_1_n_n.rhsIdx i q 1).val = (i 1).val := by
  unfold DotDims.rhsIdx
  rw [dif_neg (show ¬(1 : Fin S128x256.rank) ∈ dot_S2048x128_S128x256_S2048x256_1_0_0_1_n_n.rhsBatch by decide), dif_pos (show (1 : Fin S128x256.rank) ∈ dot_S2048x128_S128x256_S2048x256_1_0_0_1_n_n.rhsNonContracting by decide)]
  rfl

/-- The first product into the zero accumulator, at row p, column c: the sum over the 128 contracted coordinates. -/
private theorem matmul_mm1_apply (A : FVec Ideal S2048x128 .bf16) (B : FVec Ideal S128x256 .bf16) (p : Fin 2048) (c : Fin 256) :
    matmul dot_S2048x128_S128x256_S2048x256_1_0_0_1_n_n none A B (constant S2048x256 .f32 0x00000000#32) (ix2 p c)
      = ∑ k : Fin 128, A (ix2 p k) * B (ix2 k c) := by
  simp only [matmul]
  rw [Ideal.matmul_constant_zero_apply, ← Equiv.sum_comp (contrEquiv1 dot_S2048x128_S128x256_S2048x256_1_0_0_1_n_n 128 rfl rfl).symm]
  refine Finset.sum_congr rfl fun k _ => ?_
  have hk := contrEquiv1_symm_val dot_S2048x128_S128x256_S2048x256_1_0_0_1_n_n 128 rfl rfl k
  have el : dot_S2048x128_S128x256_S2048x256_1_0_0_1_n_n.lhsIdx (ix2 p c) ((contrEquiv1 dot_S2048x128_S128x256_S2048x256_1_0_0_1_n_n 128 rfl rfl).symm k) = ix2 p k := funext fun a => Fin.ext (by
    match a with
    | ⟨0, _⟩ => exact lhs_mm1_0 _ _
    | ⟨1, _⟩ => exact (lhs_mm1_1 _ _).trans hk)
  have er : dot_S2048x128_S128x256_S2048x256_1_0_0_1_n_n.rhsIdx (ix2 p c) ((contrEquiv1 dot_S2048x128_S128x256_S2048x256_1_0_0_1_n_n 128 rfl rfl).symm k) = ix2 k c := funext fun a => Fin.ext (by
    match a with
    | ⟨0, _⟩ => exact (rhs_mm1_0 _ _).trans hk
    | ⟨1, _⟩ => exact rhs_mm1_1 _ _)
  rw [el, er]

private theorem lhs_mm2_0 (i : S2048x256.Idx) (q : dot_S2048x256_S256x256_S2048x256_1_0_0_1_n_n.contr.Idx) :
    (dot_S2048x256_S256x256_S2048x256_1_0_0_1_n_n.lhsIdx i q 0).val = (i 0).val := by
  unfold DotDims.lhsIdx
  rw [dif_neg (show ¬(0 : Fin S2048x256.rank) ∈ dot_S2048x256_S256x256_S2048x256_1_0_0_1_n_n.lhsBatch by decide), dif_pos (show (0 : Fin S2048x256.rank) ∈ dot_S2048x256_S256x256_S2048x256_1_0_0_1_n_n.lhsNonContracting by decide)]
  rfl
private theorem lhs_mm2_1 (i : S2048x256.Idx) (q : dot_S2048x256_S256x256_S2048x256_1_0_0_1_n_n.contr.Idx) :
    (dot_S2048x256_S256x256_S2048x256_1_0_0_1_n_n.lhsIdx i q 1).val = (q ⟨0, by decide⟩).val :=
  dot_S2048x256_S256x256_S2048x256_1_0_0_1_n_n.lhsIdx_val_of_single rfl i q
private theorem rhs_mm2_0 (i : S2048x256.Idx) (q : dot_S2048x256_S256x256_S2048x256_1_0_0_1_n_n.contr.Idx) :
    (dot_S2048x256_S256x256_S2048x256_1_0_0_1_n_n.rhsIdx i q 0).val = (q ⟨0, by decide⟩).val :=
  dot_S2048x256_S256x256_S2048x256_1_0_0_1_n_n.rhsIdx_val_of_single rfl i q
private theorem rhs_mm2_1 (i : S2048x256.Idx) (q : dot_S2048x256_S256x256_S2048x256_1_0_0_1_n_n.contr.Idx) :
    (dot_S2048x256_S256x256_S2048x256_1_0_0_1_n_n.rhsIdx i q 1).val = (i 1).val := by
  unfold DotDims.rhsIdx
  rw [dif_neg (show ¬(1 : Fin S256x256.rank) ∈ dot_S2048x256_S256x256_S2048x256_1_0_0_1_n_n.rhsBatch by decide), dif_pos (show (1 : Fin S256x256.rank) ∈ dot_S2048x256_S256x256_S2048x256_1_0_0_1_n_n.rhsNonContracting by decide)]
  rfl

/-- The second product into the zero accumulator, at row p, column c: the sum over the 256 contracted coordinates. -/
private theorem matmul_mm2_apply (A : FVec Ideal S2048x256 .bf16) (B : FVec Ideal S256x256 .bf16) (p : Fin 2048) (c : Fin 256) :
    matmul dot_S2048x256_S256x256_S2048x256_1_0_0_1_n_n none A B (constant S2048x256 .f32 0x00000000#32) (ix2 p c)
      = ∑ k : Fin 256, A (ix2 p k) * B (ix2 k c) := by
  simp only [matmul]
  rw [Ideal.matmul_constant_zero_apply, ← Equiv.sum_comp (contrEquiv1 dot_S2048x256_S256x256_S2048x256_1_0_0_1_n_n 256 rfl rfl).symm]
  refine Finset.sum_congr rfl fun k _ => ?_
  have hk := contrEquiv1_symm_val dot_S2048x256_S256x256_S2048x256_1_0_0_1_n_n 256 rfl rfl k
  have el : dot_S2048x256_S256x256_S2048x256_1_0_0_1_n_n.lhsIdx (ix2 p c) ((contrEquiv1 dot_S2048x256_S256x256_S2048x256_1_0_0_1_n_n 256 rfl rfl).symm k) = ix2 p k := funext fun a => Fin.ext (by
    match a with
    | ⟨0, _⟩ => exact lhs_mm2_0 _ _
    | ⟨1, _⟩ => exact (lhs_mm2_1 _ _).trans hk)
  have er : dot_S2048x256_S256x256_S2048x256_1_0_0_1_n_n.rhsIdx (ix2 p c) ((contrEquiv1 dot_S2048x256_S256x256_S2048x256_1_0_0_1_n_n 256 rfl rfl).symm k) = ix2 k c := funext fun a => Fin.ext (by
    match a with
    | ⟨0, _⟩ => exact (rhs_mm2_0 _ _).trans hk
    | ⟨1, _⟩ => exact rhs_mm2_1 _ _)
  rw [el, er]

/-! ### The bias: a vector viewed as one row, the row repeated over the block's rows -/

/-- A [256] vector cast to [1, 256] and broadcast to [2048, 256] reads, at (p, c), the vector at c. -/
private theorem bias_apply (b : Vec Ideal S256 .f32) (p : Fin 2048) (c : Fin 256) :
    broadcastTo S2048x256 (shapeCast S1x256 b shapeCasts_S256_S1x256) broadcasts_S1x256_S2048x256 (ix2 p c) = b (ix1 c) :=
  (broadcastTo_1b_ab_apply _ _ p c).trans (shapeCast_a_1a_apply b _ 0 c)

/-- The stored keys at row `r`, column `d`: the perceptron of the block's row `r`. -/
theorem pay2_apply (x0 : Vec Ideal S1x2048x128 .f32) (x5 : Vec Ideal S128x256 .f32) (x6 : Vec Ideal S256 .f32)
    (x7 : Vec Ideal S256x256 .f32) (x8 : Vec Ideal S256 .f32) (r : Fin 2048) (d : Fin 256) :
    k0_pay2 (F := Ideal) x0 x5 x6 x7 x8 (ix2 r d) = mlpRow x0 x5 x6 x7 x8 r d := by
  unfold k0_pay2
  refine (congrFun (shapeCast_self _ _) (ix2 r d)).trans ?_
  refine (truncf_apply (φ := .f32) (ψ := .bf16) _ bitsLt_bf16_f32 _).trans ((addf_apply _ _ _).trans ?_)
  unfold mlpRow
  refine congrArg₂ (· + ·) ?_ (bias_apply x8 r d)
  refine (matmul_mm2_apply _ _ r d).trans ?_
  refine Finset.sum_congr rfl fun h _ => ?_
  refine congrArg₂ (· * ·) ?_ rfl
  refine (truncf_apply (φ := .f32) (ψ := .bf16) _ bitsLt_bf16_f32 _).trans ((maximumf_apply _ _ _).trans ?_)
  refine congrArg₂ max ?_ ?_
  · refine (addf_apply _ _ _).trans ?_
    refine congrArg₂ (· + ·) ?_ (bias_apply x6 r h)
    refine (matmul_mm1_apply _ _ r h).trans ?_
    refine Finset.sum_congr rfl fun i _ => ?_
    refine congrArg₂ (· * ·) ?_ rfl
    exact (truncf_apply (φ := .f32) (ψ := .bf16) _ bitsLt_bf16_f32 _).trans (shapeCast_1ab_ab_apply x0 _ r i)
  · exact Ideal.ofBits_zero_f32

end Cert.Attn.Ker

end
-- ==== Proof.KScratch.lean ====
/-
  What the scratch holds after each grid point: the keys of the point's batch.

  The batch's first point (`n % 4 = 0`) stores the perceptron of every row of the batch's block with the key weights;
  the other three points of the batch store nothing there. So after point `n` the scratch holds, at row `r` and
  column `d`, the keys `K[n / 4, r, d]` of the specification — by induction on the point.
-/
import proofs.«403823_j68401649156342_3_alg».proof.Proof.KBlocks
import proofs.«403823_j68401649156342_3_alg».proof.Proof.KPay2

set_option maxRecDepth 16384

noncomputable section

namespace Cert.Attn.Ker

open Idealize.ShloMosaic Idealize.ShloMosaic.TcCoe Idealize.ShloMosaic.ValueIdx Idealize.SL.Sem Cert.Attn
open Cert.KernelIdeal Cert.KernelIdeal.Gen

variable (m : (ℓ : Loc nD τ sig) → Buf (Elt Ideal) ℓ)

/-- The keys the batch's first point computes from its blocks are the specification's keys of batch `t / 4`. -/
theorem keysA_apply (c : Dev nD) (t : Fin cfg0.N) (r : Fin 2048) (d : Fin 256) :
    k0_pay2 (F := Ideal) (iblk m c 0 t) (iblk m c 5 t) (iblk m c 6 t) (iblk m c 7 t) (iblk m c 8 t) (ix2 r d)
      = mlp (V m c main_arg0) (V m c main_arg5) (V m c main_arg6) (V m c main_arg7) (V m c main_arg8) ⟨t.val / 4, batch_lt t⟩ r d := by
  refine (pay2_apply (iblk m c 0 t) (iblk m c 5 t) (iblk m c 6 t) (iblk m c 7 t) (iblk m c 8 t) r d).trans ?_
  rw [wblk5_eq m c t, wblk6_eq m c t, wblk7_eq m c t, wblk8_eq m c t]
  exact mlpRow_eq_mlp _ (V m c main_arg0) _ _ _ _ r ⟨t.val / 4, batch_lt t⟩ r (fun i => xblk_apply m c t r i) d

/-- After point `n` the scratch holds the keys of batch `n / 4`. -/
theorem scratch_apply (c : Dev nD) : ∀ (n : ℕ) (hn : n < cfg0.N) (r : Fin 2048) (d : Fin 256),
    (outsAt0 m c n hn).2 (ix2 r d)
      = mlp (V m c main_arg0) (V m c main_arg5) (V m c main_arg6) (V m c main_arg7) (V m c main_arg8) ⟨n / 4, batch_lt ⟨n, hn⟩⟩ r d := by
  intro n
  induction n with
  | zero =>
    intro hn r d
    have h0 : (⟨0, hn⟩ : Fin cfg0.N).val % 4 = 0 := rfl
    rw [outsAt0_A m c ⟨0, hn⟩ h0]
    dsimp only
    refine (congrFun (sout_A (F := Ideal) c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) scM0_0 (Memref.isWhole_whole _) ((hcond0_0 ⟨0, hn⟩).mpr h0) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩) (iblk m c 8 ⟨0, hn⟩)) (ix2 r d)).trans ?_
    exact keysA_apply m c ⟨0, hn⟩ r d
  | succ n ih =>
    intro hn r d
    by_cases h0 : (n + 1) % 4 = 0
    · have h0' : (⟨n + 1, hn⟩ : Fin cfg0.N).val % 4 = 0 := h0
      rw [outsAt0_A m c ⟨n + 1, hn⟩ h0']
      dsimp only
      refine (congrFun (sout_A (F := Ideal) c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) scM0_0 (Memref.isWhole_whole _) ((hcond0_0 ⟨n + 1, hn⟩).mpr h0') (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩)) (ix2 r d)).trans ?_
      exact keysA_apply m c ⟨n + 1, hn⟩ r d
    · have h0' : ¬(⟨n + 1, hn⟩ : Fin cfg0.N).val % 4 = 0 := h0
      rw [outsAt0_B m c ⟨n + 1, hn⟩ h0']
      dsimp only
      show (outsAt0 m c (n + 1 - 1) _).2 (ix2 r d) = _
      have hb : (⟨(n + 1) / 4, batch_lt ⟨n + 1, hn⟩⟩ : Fin 8) = ⟨n / 4, batch_lt ⟨n, Nat.lt_of_succ_lt hn⟩⟩ := Fin.ext (by show (n + 1) / 4 = n / 4; omega)
      rw [hb]
      exact ih (Nat.lt_of_succ_lt hn) r d

end Cert.Attn.Ker

end
-- ==== Proof.KPayOut.lean ====
/-
  The block the kernel writes at one grid point, read at an entry.

  From a tile of 512 rows and the stored keys `ks` the body forms the queries (the perceptron of each row of the tile),
  the products `∑ d, Q[sl, d] · ks[t', d]` of each query row against all 2048 key rows, normalises every row of
  products by the reciprocal of its maximum, and applies a softmax with the reciprocal of the sum multiplied in.
-/
import proofs.«403823_j68401649156342_3_alg».proof.Proof.KDefs
import proofs.«403823_j68401649156342_3_alg».proof.Proof.Gen.KernelIdeal.Skeleton
import Idealize.ShloMosaic.Lib.Pipeline.Value
import Idealize.ShloMosaic.Lib.ValueIdx
import Idealize.ShloMosaic.Lib.ValueLayout
import Idealize.ShloMosaic.PureOps.Ideal.Laws

noncomputable section

namespace Cert.Attn.Ker

open Idealize.ShloMosaic Idealize.ShloMosaic.ValueIdx Cert.Alg Cert.Attn
open Cert.KernelIdeal Cert.KernelIdeal.Gen
open scoped BigOperators

/-! ## Layout operations at coordinates: the column forms -/

/-- An `[a]` array cast to `[a, 1]` reads, at `(i, u)`, the operand at `i`. -/
private theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column at row `p`. -/
private theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-! ## The two reductions along a row -/

/-- The sum along the rows of a `[512, 2048]` block. -/
private theorem rowSum_apply (v : FVec Ideal S512x2048 .f32) (p : Fin 512) :
    multiReduction (F := Ideal) .add [1] S512 v 0x00000000#32 reduces_S512x2048_S512 (.inl rfl) rfl (ix1 p)
      = ∑ u : Fin 2048, v (ix2 p u) := by
  refine (Ideal.multiReduction_add_single v _ reduces_S512x2048_S512 (.inl rfl) rfl (ix1 p)).trans ?_
  refine Finset.sum_congr rfl fun u _ => congrArg v ?_
  funext a
  match a with
  | ⟨0, _⟩ => rfl
  | ⟨1, _⟩ => rfl

/-- The pattern of −∞. -/
private theorem ofBits_negInf : Ideal.ofBits .f32 0xFF800000#32 = ⊥ := by
  simp [Ideal.ofBits, Ideal.ieee]

/-- The maximum along the rows of a `[512, 2048]` block, taken from −∞. -/
private theorem rowMax_apply (v : FVec Ideal S512x2048 .f32) (p : Fin 512) :
    multiReduction (F := Ideal) .maximumf [1] S512 v 0xFF800000#32 reduces_S512x2048_S512 (.inl rfl) rfl (ix1 p)
      = rowMax fun u : Fin 2048 => v (ix2 p u) := by
  refine (Ideal.multiReduction_maximumf_single v _ reduces_S512x2048_S512 (.inl rfl) rfl (ix1 p)).trans ?_
  show (Finset.univ : Finset (Fin 2048)).fold max (Ideal.ofBits .f32 0xFF800000#32) _ = _
  rw [ofBits_negInf]
  unfold rowMax
  refine congrArg (fun f => (Finset.univ : Finset (Fin 2048)).fold max ⊥ f) ?_
  funext u
  refine congrArg v ?_
  funext a
  match a with
  | ⟨0, _⟩ => rfl
  | ⟨1, _⟩ => rfl

/-! ## The three products, read at an entry -/

private theorem lhs_w1_0 (i : S512x256.Idx) (q : dot_S512x128_S128x256_S512x256_1_0_0_1_n_n.contr.Idx) :
    (dot_S512x128_S128x256_S512x256_1_0_0_1_n_n.lhsIdx i q 0).val = (i 0).val := by
  unfold DotDims.lhsIdx
  rw [dif_neg (show ¬(0 : Fin S512x128.rank) ∈ dot_S512x128_S128x256_S512x256_1_0_0_1_n_n.lhsBatch by decide), dif_pos (show (0 : Fin S512x128.rank) ∈ dot_S512x128_S128x256_S512x256_1_0_0_1_n_n.lhsNonContracting by decide)]
  rfl
private theorem lhs_w1_1 (i : S512x256.Idx) (q : dot_S512x128_S128x256_S512x256_1_0_0_1_n_n.contr.Idx) :
    (dot_S512x128_S128x256_S512x256_1_0_0_1_n_n.lhsIdx i q 1).val = (q ⟨0, by decide⟩).val :=
  dot_S512x128_S128x256_S512x256_1_0_0_1_n_n.lhsIdx_val_of_single rfl i q
private theorem rhs_w1_0 (i : S512x256.Idx) (q : dot_S512x128_S128x256_S512x256_1_0_0_1_n_n.contr.Idx) :
    (dot_S512x128_S128x256_S512x256_1_0_0_1_n_n.rhsIdx i q 0).val = (q ⟨0, by decide⟩).val :=
  dot_S512x128_S128x256_S512x256_1_0_0_1_n_n.rhsIdx_val_of_single rfl i q
private theorem rhs_w1_1 (i : S512x256.Idx) (q : dot_S512x128_S128x256_S512x256_1_0_0_1_n_n.contr.Idx) :
    (dot_S512x128_S128x256_S512x256_1_0_0_1_n_n.rhsIdx i q 1).val = (i 1).val := by
  unfold DotDims.rhsIdx
  rw [dif_neg (show ¬(1 : Fin S128x256.rank) ∈ dot_S512x128_S128x256_S512x256_1_0_0_1_n_n.rhsBatch by decide), dif_pos (show (1 : Fin S128x256.rank) ∈ dot_S512x128_S128x256_S512x256_1_0_0_1_n_n.rhsNonContracting by decide)]
  rfl
/-- Rows of a `[512, 128]` block against the columns of a `[128, 256]` matrix. -/
private theorem matmul_w1_apply {φ₁ φ₂ : FTy} (x : FVec Ideal S512x128 φ₁) (y : FVec Ideal S128x256 φ₂) (p : Fin 512) (c : Fin 256) :
    matmul (F := Ideal) dot_S512x128_S128x256_S512x256_1_0_0_1_n_n none x y (constant S512x256 .f32 0x00000000#32) (ix2 p c)
      = ∑ k : Fin 128, x (ix2 p k) * y (ix2 k c) := by
  refine (Ideal.matmul_constant_zero_apply dot_S512x128_S128x256_S512x256_1_0_0_1_n_n none x y (ix2 p c)).trans ?_
  rw [← Equiv.sum_comp (ValueIdx.contrEquiv1 dot_S512x128_S128x256_S512x256_1_0_0_1_n_n 128 rfl rfl).symm]
  refine Finset.sum_congr rfl fun k _ => ?_
  have hk := ValueIdx.contrEquiv1_symm_val dot_S512x128_S128x256_S512x256_1_0_0_1_n_n 128 rfl rfl k
  have el : dot_S512x128_S128x256_S512x256_1_0_0_1_n_n.lhsIdx (ix2 p c) ((ValueIdx.contrEquiv1 dot_S512x128_S128x256_S512x256_1_0_0_1_n_n 128 rfl rfl).symm k) = ix2 p k := funext fun a => Fin.ext (by
    match a with
    | ⟨0, _⟩ => exact lhs_w1_0 _ _
    | ⟨1, _⟩ => exact (lhs_w1_1 _ _).trans hk)
  have er : dot_S512x128_S128x256_S512x256_1_0_0_1_n_n.rhsIdx (ix2 p c) ((ValueIdx.contrEquiv1 dot_S512x128_S128x256_S512x256_1_0_0_1_n_n 128 rfl rfl).symm k) = ix2 k c := funext fun a => Fin.ext (by
    match a with
    | ⟨0, _⟩ => exact (rhs_w1_0 _ _).trans hk
    | ⟨1, _⟩ => exact rhs_w1_1 _ _)
  rw [el, er]

private theorem lhs_w2_0 (i : S512x256.Idx) (q : dot_S512x256_S256x256_S512x256_1_0_0_1_n_n.contr.Idx) :
    (dot_S512x256_S256x256_S512x256_1_0_0_1_n_n.lhsIdx i q 0).val = (i 0).val := by
  unfold DotDims.lhsIdx
  rw [dif_neg (show ¬(0 : Fin S512x256.rank) ∈ dot_S512x256_S256x256_S512x256_1_0_0_1_n_n.lhsBatch by decide), dif_pos (show (0 : Fin S512x256.rank) ∈ dot_S512x256_S256x256_S512x256_1_0_0_1_n_n.lhsNonContracting by decide)]
  rfl
private theorem lhs_w2_1 (i : S512x256.Idx) (q : dot_S512x256_S256x256_S512x256_1_0_0_1_n_n.contr.Idx) :
    (dot_S512x256_S256x256_S512x256_1_0_0_1_n_n.lhsIdx i q 1).val = (q ⟨0, by decide⟩).val :=
  dot_S512x256_S256x256_S512x256_1_0_0_1_n_n.lhsIdx_val_of_single rfl i q
private theorem rhs_w2_0 (i : S512x256.Idx) (q : dot_S512x256_S256x256_S512x256_1_0_0_1_n_n.contr.Idx) :
    (dot_S512x256_S256x256_S512x256_1_0_0_1_n_n.rhsIdx i q 0).val = (q ⟨0, by decide⟩).val :=
  dot_S512x256_S256x256_S512x256_1_0_0_1_n_n.rhsIdx_val_of_single rfl i q
private theorem rhs_w2_1 (i : S512x256.Idx) (q : dot_S512x256_S256x256_S512x256_1_0_0_1_n_n.contr.Idx) :
    (dot_S512x256_S256x256_S512x256_1_0_0_1_n_n.rhsIdx i q 1).val = (i 1).val := by
  unfold DotDims.rhsIdx
  rw [dif_neg (show ¬(1 : Fin S256x256.rank) ∈ dot_S512x256_S256x256_S512x256_1_0_0_1_n_n.rhsBatch by decide), dif_pos (show (1 : Fin S256x256.rank) ∈ dot_S512x256_S256x256_S512x256_1_0_0_1_n_n.rhsNonContracting by decide)]
  rfl
/-- Rows of a `[512, 256]` block against the columns of a `[256, 256]` matrix. -/
private theorem matmul_w2_apply {φ₁ φ₂ : FTy} (x : FVec Ideal S512x256 φ₁) (y : FVec Ideal S256x256 φ₂) (p : Fin 512) (c : Fin 256) :
    matmul (F := Ideal) dot_S512x256_S256x256_S512x256_1_0_0_1_n_n none x y (constant S512x256 .f32 0x00000000#32) (ix2 p c)
      = ∑ k : Fin 256, x (ix2 p k) * y (ix2 k c) := by
  refine (Ideal.matmul_constant_zero_apply dot_S512x256_S256x256_S512x256_1_0_0_1_n_n none x y (ix2 p c)).trans ?_
  rw [← Equiv.sum_comp (ValueIdx.contrEquiv1 dot_S512x256_S256x256_S512x256_1_0_0_1_n_n 256 rfl rfl).symm]
  refine Finset.sum_congr rfl fun k _ => ?_
  have hk := ValueIdx.contrEquiv1_symm_val dot_S512x256_S256x256_S512x256_1_0_0_1_n_n 256 rfl rfl k
  have el : dot_S512x256_S256x256_S512x256_1_0_0_1_n_n.lhsIdx (ix2 p c) ((ValueIdx.contrEquiv1 dot_S512x256_S256x256_S512x256_1_0_0_1_n_n 256 rfl rfl).symm k) = ix2 p k := funext fun a => Fin.ext (by
    match a with
    | ⟨0, _⟩ => exact lhs_w2_0 _ _
    | ⟨1, _⟩ => exact (lhs_w2_1 _ _).trans hk)
  have er : dot_S512x256_S256x256_S512x256_1_0_0_1_n_n.rhsIdx (ix2 p c) ((ValueIdx.contrEquiv1 dot_S512x256_S256x256_S512x256_1_0_0_1_n_n 256 rfl rfl).symm k) = ix2 k c := funext fun a => Fin.ext (by
    match a with
    | ⟨0, _⟩ => exact (rhs_w2_0 _ _).trans hk
    | ⟨1, _⟩ => exact rhs_w2_1 _ _)
  rw [el, er]

private theorem lhs_qk_0 (i : S512x2048.Idx) (q : dot_S512x256_S2048x256_S512x2048_1_1_0_0_n_n.contr.Idx) :
    (dot_S512x256_S2048x256_S512x2048_1_1_0_0_n_n.lhsIdx i q 0).val = (i 0).val := by
  unfold DotDims.lhsIdx
  rw [dif_neg (show ¬(0 : Fin S512x256.rank) ∈ dot_S512x256_S2048x256_S512x2048_1_1_0_0_n_n.lhsBatch by decide), dif_pos (show (0 : Fin S512x256.rank) ∈ dot_S512x256_S2048x256_S512x2048_1_1_0_0_n_n.lhsNonContracting by decide)]
  rfl
private theorem lhs_qk_1 (i : S512x2048.Idx) (q : dot_S512x256_S2048x256_S512x2048_1_1_0_0_n_n.contr.Idx) :
    (dot_S512x256_S2048x256_S512x2048_1_1_0_0_n_n.lhsIdx i q 1).val = (q ⟨0, by decide⟩).val :=
  dot_S512x256_S2048x256_S512x2048_1_1_0_0_n_n.lhsIdx_val_of_single rfl i q
private theorem rhs_qk_0 (i : S512x2048.Idx) (q : dot_S512x256_S2048x256_S512x2048_1_1_0_0_n_n.contr.Idx) :
    (dot_S512x256_S2048x256_S512x2048_1_1_0_0_n_n.rhsIdx i q 0).val = (i 1).val := by
  unfold DotDims.rhsIdx
  rw [dif_neg (show ¬(0 : Fin S2048x256.rank) ∈ dot_S512x256_S2048x256_S512x2048_1_1_0_0_n_n.rhsBatch by decide), dif_pos (show (0 : Fin S2048x256.rank) ∈ dot_S512x256_S2048x256_S512x2048_1_1_0_0_n_n.rhsNonContracting by decide)]
  rfl
private theorem rhs_qk_1 (i : S512x2048.Idx) (q : dot_S512x256_S2048x256_S512x2048_1_1_0_0_n_n.contr.Idx) :
    (dot_S512x256_S2048x256_S512x2048_1_1_0_0_n_n.rhsIdx i q 1).val = (q ⟨0, by decide⟩).val :=
  dot_S512x256_S2048x256_S512x2048_1_1_0_0_n_n.rhsIdx_val_of_single rfl i q
/-- Rows of a `[512, 256]` block against the ROWS of a `[2048, 256]` matrix: both operands are contracted along axis 1. -/
private theorem matmul_qk_apply {φ₁ φ₂ : FTy} (x : FVec Ideal S512x256 φ₁) (y : FVec Ideal S2048x256 φ₂) (p : Fin 512) (c : Fin 2048) :
    matmul (F := Ideal) dot_S512x256_S2048x256_S512x2048_1_1_0_0_n_n none x y (constant S512x2048 .f32 0x00000000#32) (ix2 p c)
      = ∑ k : Fin 256, x (ix2 p k) * y (ix2 c k) := by
  refine (Ideal.matmul_constant_zero_apply dot_S512x256_S2048x256_S512x2048_1_1_0_0_n_n none x y (ix2 p c)).trans ?_
  rw [← Equiv.sum_comp (ValueIdx.contrEquiv1 dot_S512x256_S2048x256_S512x2048_1_1_0_0_n_n 256 rfl rfl).symm]
  refine Finset.sum_congr rfl fun k _ => ?_
  have hk := ValueIdx.contrEquiv1_symm_val dot_S512x256_S2048x256_S512x2048_1_1_0_0_n_n 256 rfl rfl k
  have el : dot_S512x256_S2048x256_S512x2048_1_1_0_0_n_n.lhsIdx (ix2 p c) ((ValueIdx.contrEquiv1 dot_S512x256_S2048x256_S512x2048_1_1_0_0_n_n 256 rfl rfl).symm k) = ix2 p k := funext fun a => Fin.ext (by
    match a with
    | ⟨0, _⟩ => exact lhs_qk_0 _ _
    | ⟨1, _⟩ => exact (lhs_qk_1 _ _).trans hk)
  have er : dot_S512x256_S2048x256_S512x2048_1_1_0_0_n_n.rhsIdx (ix2 p c) ((ValueIdx.contrEquiv1 dot_S512x256_S2048x256_S512x2048_1_1_0_0_n_n 256 rfl rfl).symm k) = ix2 c k := funext fun a => Fin.ext (by
    match a with
    | ⟨0, _⟩ => exact rhs_qk_0 _ _
    | ⟨1, _⟩ => exact (rhs_qk_1 _ _).trans hk)
  rw [el, er]

/-! ## The pieces of the body, over variables -/

/-- The pattern of 1.0 denotes 1. -/
private theorem ofBits_one' : Ideal.ofBits .f32 0x3F800000#32 = 1 := by
  rw [ofBits_one, EReal.coe_one]

/-- The reciprocal of a column of row values, spread along the rows: `1 / r p` at `(p, c)`. -/
private theorem recipCol_apply (r : FVec Ideal S512 .f32) (p : Fin 512) (c : Fin 2048) :
    broadcastTo S512x2048 (divf (broadcast S512x1 (Scalar.ofBits (F := Ideal) .f32 0x3F800000#32))
        (shapeCast S512x1 r shapeCasts_S512_S512x1)) broadcasts_S512x1_S512x2048 (ix2 p c)
      = Ideal.div 1 (r (ix1 p)) := by
  refine (broadcastTo_a1_ab_apply _ broadcasts_S512x1_S512x2048 p c).trans ?_
  refine (divf_apply _ _ _).trans ?_
  rw [shapeCast_a_a1_apply r shapeCasts_S512_S512x1 p 0, broadcast_apply]
  show Ideal.div (Ideal.ofBits .f32 0x3F800000#32) _ = _
  rw [ofBits_one']

/-- A block shifted by a column of row values, exponentiated. -/
private theorem expShift_apply (l : FVec Ideal S512x2048 .f32) (mcol : FVec Ideal S512x1 .f32) (p : Fin 512) (c : Fin 2048) :
    exp (subf l (broadcastTo S512x2048 mcol broadcasts_S512x1_S512x2048)) (ix2 p c)
      = Ideal.exp (l (ix2 p c) - mcol (ix2 p 0)) := by
  show Ideal.exp (l (ix2 p c) - broadcastTo S512x2048 mcol broadcasts_S512x1_S512x2048 (ix2 p c)) = _
  rw [broadcastTo_a1_ab_apply mcol broadcasts_S512x1_S512x2048 p c]

/-- The softmax tail of the body: from a block of logits and a column of shifts. -/
private theorem pay1_apply (l : FVec Ideal S512x2048 .f32) (mcol : FVec Ideal S512x1 .f32) (sl : Fin 512) (tt : Fin 2048) :
    k0_pay1 (F := Ideal) l mcol (ix3 0 sl tt)
      = Ideal.exp (l (ix2 sl tt) - mcol (ix2 sl 0))
          * Ideal.div 1 (∑ u : Fin 2048, Ideal.exp (l (ix2 sl u) - mcol (ix2 sl 0))) := by
  unfold k0_pay1
  refine (shapeCast_ab_1ab_apply _ shapeCasts_S512x2048_S1x512x2048 0 sl tt).trans ?_
  refine (mulf_apply _ _ _).trans ?_
  rw [expShift_apply l mcol sl tt]
  refine congrArg (fun z => Ideal.exp (l (ix2 sl tt) - mcol (ix2 sl 0)) * z) ?_
  refine (recipCol_apply _ sl tt).trans ?_
  refine congrArg (fun z => Ideal.div 1 z) ?_
  refine (rowSum_apply _ sl).trans ?_
  exact Finset.sum_congr rfl fun u _ => expShift_apply l mcol sl u

/-! ## The queries of the tile and their products with the keys -/

/-- A `[256]` vector viewed as one row and repeated over the 512 rows reads, at `(p, c)`, the vector at `c`. -/
private theorem biasRow_apply (b : Vec Ideal S256 .f32) (p : Fin 512) (c : Fin 256) :
    broadcastTo S512x256 (shapeCast S1x256 b shapeCasts_S256_S1x256) broadcasts_S1x256_S512x256 (ix2 p c) = b (ix1 c) :=
  (broadcastTo_1b_ab_apply _ _ p c).trans (shapeCast_a_1a_apply b _ 0 c)

/-- The hidden layer of the tile: the first product plus its bias, clipped below at zero. -/
private def hidTile (xt : Vec Ideal S1x512x128 .f32) (x1 : Vec Ideal S128x256 .f32) (x2 : Vec Ideal S256 .f32) :
    FVec Ideal S512x256 .f32 :=
  maximumf
    (addf
      (matmul (φ₁ := .bf16) (φ₂ := .bf16) dot_S512x128_S128x256_S512x256_1_0_0_1_n_n none
        (truncf (φ := .f32) .bf16 (shapeCast S512x128 xt shapeCasts_S1x512x128_S512x128) bitsLt_bf16_f32)
        (truncf (φ := .f32) .bf16 x1 bitsLt_bf16_f32) (constant S512x256 .f32 0x00000000#32))
      (broadcastTo S512x256 (shapeCast S1x256 x2 shapeCasts_S256_S1x256) broadcasts_S1x256_S512x256))
    (broadcast S512x256 (Scalar.ofBits .f32 0x00000000#32))

/-- The queries of the tile: the second product plus its bias. -/
private def qTile (xt : Vec Ideal S1x512x128 .f32) (x1 : Vec Ideal S128x256 .f32) (x2 : Vec Ideal S256 .f32)
    (x3 : Vec Ideal S256x256 .f32) (x4 : Vec Ideal S256 .f32) : FVec Ideal S512x256 .f32 :=
  addf
    (matmul (φ₁ := .bf16) (φ₂ := .bf16) dot_S512x256_S256x256_S512x256_1_0_0_1_n_n none
      (truncf (φ := .f32) .bf16 (hidTile xt x1 x2) bitsLt_bf16_f32)
      (truncf (φ := .f32) .bf16 x3 bitsLt_bf16_f32) (constant S512x256 .f32 0x00000000#32))
    (broadcastTo S512x256 (shapeCast S1x256 x4 shapeCasts_S256_S1x256) broadcasts_S1x256_S512x256)

/-- The products of the tile's queries with all the keys. -/
private def prodTile (xt : Vec Ideal S1x512x128 .f32) (x1 : Vec Ideal S128x256 .f32) (x2 : Vec Ideal S256 .f32)
    (x3 : Vec Ideal S256x256 .f32) (x4 : Vec Ideal S256 .f32) (ks : Vec Ideal S2048x256 .bf16) : FVec Ideal S512x2048 .f32 :=
  matmul (φ₁ := .bf16) (φ₂ := .bf16) dot_S512x256_S2048x256_S512x2048_1_1_0_0_n_n none
    (truncf (φ := .f32) .bf16 (qTile xt x1 x2 x3 x4) bitsLt_bf16_f32) ks (constant S512x2048 .f32 0x00000000#32)

/-- The hidden layer at row `p`, unit `h`. -/
private theorem hidTile_apply (xt : Vec Ideal S1x512x128 .f32) (x1 : Vec Ideal S128x256 .f32) (x2 : Vec Ideal S256 .f32)
    (p : Fin 512) (h : Fin 256) :
    hidTile xt x1 x2 (ix2 p h) = max ((∑ i : Fin 128, xt (ix3 0 p i) * x1 (ix2 i h)) + x2 (ix1 h)) 0 := by
  unfold hidTile
  refine (maximumf_apply _ _ _).trans ?_
  refine congrArg₂ max ?_ ?_
  · refine (addf_apply _ _ _).trans ?_
    refine congrArg₂ (· + ·) ?_ (biasRow_apply x2 p h)
    refine (matmul_w1_apply (φ₁ := .bf16) (φ₂ := .bf16) _ _ p h).trans ?_
    refine Finset.sum_congr rfl fun i _ => ?_
    refine congrArg₂ (· * ·) ?_ rfl
    exact (truncf_apply (φ := .f32) (ψ := .bf16) _ bitsLt_bf16_f32 _).trans (shapeCast_1ab_ab_apply xt _ p i)
  · exact Ideal.ofBits_zero_f32

/-- The queries at row `p`, coordinate `d`: the perceptron of the tile's row `p`. -/
private theorem qTile_apply (xt : Vec Ideal S1x512x128 .f32) (x1 : Vec Ideal S128x256 .f32) (x2 : Vec Ideal S256 .f32)
    (x3 : Vec Ideal S256x256 .f32) (x4 : Vec Ideal S256 .f32) (p : Fin 512) (d : Fin 256) :
    qTile xt x1 x2 x3 x4 (ix2 p d) = mlpRow xt x1 x2 x3 x4 p d := by
  unfold qTile mlpRow
  refine (addf_apply _ _ _).trans ?_
  refine congrArg₂ (· + ·) ?_ (biasRow_apply x4 p d)
  refine (matmul_w2_apply (φ₁ := .bf16) (φ₂ := .bf16) _ _ p d).trans ?_
  refine Finset.sum_congr rfl fun h _ => ?_
  refine congrArg₂ (· * ·) ?_ rfl
  exact (truncf_apply (φ := .f32) (ψ := .bf16) _ bitsLt_bf16_f32 _).trans (hidTile_apply xt x1 x2 p h)

/-- The products at row `p`, key `t`. -/
private theorem prodTile_apply (xt : Vec Ideal S1x512x128 .f32) (x1 : Vec Ideal S128x256 .f32) (x2 : Vec Ideal S256 .f32)
    (x3 : Vec Ideal S256x256 .f32) (x4 : Vec Ideal S256 .f32) (ks : Vec Ideal S2048x256 .bf16) (p : Fin 512) (t : Fin 2048) :
    prodTile xt x1 x2 x3 x4 ks (ix2 p t) = ∑ d : Fin 256, mlpRow xt x1 x2 x3 x4 p d * ks (ix2 t d) := by
  unfold prodTile
  refine (matmul_qk_apply (φ₁ := .bf16) (φ₂ := .bf16) _ ks p t).trans ?_
  refine Finset.sum_congr rfl fun d _ => ?_
  refine congrArg₂ (· * ·) ?_ rfl
  exact (truncf_apply (φ := .f32) (ψ := .bf16) _ bitsLt_bf16_f32 _).trans (qTile_apply xt x1 x2 x3 x4 p d)

/-- The body's normalised products are the products times the reciprocal of each row's maximum. -/
private theorem pay3_eq (xt : Vec Ideal S1x512x128 .f32) (x1 : Vec Ideal S128x256 .f32) (x2 : Vec Ideal S256 .f32)
    (x3 : Vec Ideal S256x256 .f32) (x4 : Vec Ideal S256 .f32) (ks : Vec Ideal S2048x256 .bf16) :
    k0_pay3 (F := Ideal) xt x1 x2 x3 x4 ks
      = mulf (prodTile xt x1 x2 x3 x4 ks)
          (broadcastTo S512x2048 (divf (broadcast S512x1 (Scalar.ofBits (F := Ideal) .f32 0x3F800000#32))
            (shapeCast S512x1 (multiReduction (F := Ideal) .maximumf [1] S512 (prodTile xt x1 x2 x3 x4 ks) 0xFF800000#32
              reduces_S512x2048_S512 (.inl rfl) rfl) shapeCasts_S512_S512x1)) broadcasts_S512x1_S512x2048) := rfl

/-- The normalised products at row `p`, key `t`. -/
private theorem pay3_apply (xt : Vec Ideal S1x512x128 .f32) (x1 : Vec Ideal S128x256 .f32) (x2 : Vec Ideal S256 .f32)
    (x3 : Vec Ideal S256x256 .f32) (x4 : Vec Ideal S256 .f32) (ks : Vec Ideal S2048x256 .bf16) (p : Fin 512) (t : Fin 2048) :
    k0_pay3 (F := Ideal) xt x1 x2 x3 x4 ks (ix2 p t)
      = scaledRecip (fun t' : Fin 2048 => ∑ d : Fin 256, mlpRow xt x1 x2 x3 x4 p d * ks (ix2 t' d)) t := by
  rw [pay3_eq]
  refine (mulf_apply _ _ _).trans ?_
  rw [recipCol_apply _ p t, rowMax_apply _ p]
  simp only [prodTile_apply]
  rfl

/-- The column of row maxima of the normalised products. -/
private theorem pay4_apply (xt : Vec Ideal S1x512x128 .f32) (x1 : Vec Ideal S128x256 .f32) (x2 : Vec Ideal S256 .f32)
    (x3 : Vec Ideal S256x256 .f32) (x4 : Vec Ideal S256 .f32) (ks : Vec Ideal S2048x256 .bf16) (p : Fin 512) :
    k0_pay4 (F := Ideal) xt x1 x2 x3 x4 ks (ix2 p 0)
      = rowMax (scaledRecip fun t' : Fin 2048 => ∑ d : Fin 256, mlpRow xt x1 x2 x3 x4 p d * ks (ix2 t' d)) := by
  unfold k0_pay4
  refine (shapeCast_a_a1_apply _ shapeCasts_S512_S512x1 p 0).trans ?_
  refine (rowMax_apply _ p).trans ?_
  refine congrArg rowMax ?_
  funext t
  exact pay3_apply xt x1 x2 x3 x4 ks p t

/-- The written block at row `sl` of the tile and key position `tt`. -/
theorem out_apply (xt : Vec Ideal S1x512x128 .f32) (x1 : Vec Ideal S128x256 .f32) (x2 : Vec Ideal S256 .f32)
    (x3 : Vec Ideal S256x256 .f32) (x4 : Vec Ideal S256 .f32) (ks : Vec Ideal S2048x256 .bf16) (sl : Fin 512) (tt : Fin 2048) :
    k0_pay1 (F := Ideal) (k0_pay3 xt x1 x2 x3 x4 ks) (k0_pay4 xt x1 x2 x3 x4 ks) (ix3 0 sl tt)
      = softmaxRecip (scaledRecip fun t' : Fin 2048 => ∑ d : Fin 256, mlpRow xt x1 x2 x3 x4 sl d * ks (ix2 t' d)) tt := by
  rw [pay1_apply, pay4_apply]
  simp only [pay3_apply]
  rfl

end Cert.Attn.Ker

end
-- ==== Proof.KFinal.lean ====
/-
  The kernel's result array is the attention map with the reciprocals taken once per row.

  The block point `t` writes back is rows `512·(t % 4) …` of batch `t / 4` of `attnRecip`: the tile's queries are the
  specification's queries of those rows, the keys the point reads (just stored at the batch's first point, left by
  the point before at the others) are the batch's keys, so each row of products is the specification's row of scores.
  Every index `(b, s, u)` of the result lies in the block of point `4·b + s / 512`, so the blocks fill the array.
-/
import proofs.«403823_j68401649156342_3_alg».proof.Proof.KScratch
import proofs.«403823_j68401649156342_3_alg».proof.Proof.KPayOut

set_option maxRecDepth 16384

noncomputable section

namespace Cert.Attn.Ker

open Idealize.ShloMosaic Idealize.ShloMosaic.TcCoe Idealize.ShloMosaic.ValueIdx Idealize.SL.Sem Cert.Attn
open Cert.KernelIdeal Cert.KernelIdeal.Gen
open Idealize.ShloMosaic.Pipeline (Dat)

variable (m : (ℓ : Loc nD τ sig) → Buf (Elt Ideal) ℓ) (ρ : Dev nD → PrngReg)

/-- At a batch's later points the scratch the point reads holds the batch's keys. -/
theorem keysB_apply (c : Dev nD) (t : Fin cfg0.N) (h0 : ¬t.val % 4 = 0) (r : Fin 2048) (d : Fin 256) :
    (outsAt0 m c (t.val - 1) (Nat.lt_of_le_of_lt (Nat.sub_le _ _) t.isLt)).2 (ix2 r d)
      = mlp (V m c main_arg0) (V m c main_arg5) (V m c main_arg6) (V m c main_arg7) (V m c main_arg8) ⟨t.val / 4, batch_lt t⟩ r d := by
  rw [scratch_apply m c (t.val - 1) (Nat.lt_of_le_of_lt (Nat.sub_le _ _) t.isLt) r d]
  have hb : (⟨(t.val - 1) / 4, batch_lt ⟨t.val - 1, Nat.lt_of_le_of_lt (Nat.sub_le _ _) t.isLt⟩⟩ : Fin 8) = ⟨t.val / 4, batch_lt t⟩ :=
    Fin.ext (by show (t.val - 1) / 4 = t.val / 4; omega)
  rw [hb]

/-- The body's tail at point `t`, over any keys that are the batch's keys: the specification's block. -/
theorem tail_apply (c : Dev nD) (t : Fin cfg0.N) (ks : Vec Ideal S2048x256 .bf16)
    (hks : ∀ (r : Fin 2048) (d : Fin 256), ks (ix2 r d) = mlp (V m c main_arg0) (V m c main_arg5) (V m c main_arg6) (V m c main_arg7) (V m c main_arg8) ⟨t.val / 4, batch_lt t⟩ r d)
    (sl : Fin 512) (tt : Fin 2048) :
    k0_pay1 (F := Ideal)
        (k0_pay3 (xtile (grid0.coords t) (iblk m c 0 t)) (iblk m c 1 t) (iblk m c 2 t) (iblk m c 3 t) (iblk m c 4 t) ks)
        (k0_pay4 (xtile (grid0.coords t) (iblk m c 0 t)) (iblk m c 1 t) (iblk m c 2 t) (iblk m c 3 t) (iblk m c 4 t) ks) (ix3 0 sl tt)
      = attnRecip (V m c main_arg0) (V m c main_arg1) (V m c main_arg2) (V m c main_arg3) (V m c main_arg4) (V m c main_arg5) (V m c main_arg6) (V m c main_arg7) (V m c main_arg8) (ix3 ⟨t.val / 4, batch_lt t⟩ ⟨512 * (t.val % 4) + sl.val, row_lt t sl⟩ tt) := by
  refine (out_apply (xtile (grid0.coords t) (iblk m c 0 t)) (iblk m c 1 t) (iblk m c 2 t) (iblk m c 3 t) (iblk m c 4 t) ks sl tt).trans ?_
  rw [wblk1_eq m c t, wblk2_eq m c t, wblk3_eq m c t, wblk4_eq m c t]
  have hrow : (fun t' : Fin 2048 => ∑ d : Fin 256, mlpRow (xtile (grid0.coords t) (iblk m c 0 t)) (V m c main_arg1) (V m c main_arg2) (V m c main_arg3) (V m c main_arg4) sl d * ks (ix2 t' d))
      = score (V m c main_arg0) (V m c main_arg1) (V m c main_arg2) (V m c main_arg3) (V m c main_arg4) (V m c main_arg5) (V m c main_arg6) (V m c main_arg7) (V m c main_arg8) ⟨t.val / 4, batch_lt t⟩ ⟨512 * (t.val % 4) + sl.val, row_lt t sl⟩ := by
    funext t'
    unfold score
    refine Finset.sum_congr rfl fun d _ => ?_
    rw [hks t' d, mlpRow_eq_mlp _ (V m c main_arg0) _ _ _ _ sl ⟨t.val / 4, batch_lt t⟩ ⟨512 * (t.val % 4) + sl.val, row_lt t sl⟩
      (fun i => xtile_apply m c t sl i) d]
  rw [hrow]
  rfl

/-- WHAT POINT `t` WRITES BACK is block `t` of the attention map of the argument arrays. -/
theorem flushed_eq (c : Dev nD) (t : Fin cfg0.N) :
    (dats m 0 c).flushed 9 t = ((cfg0.win 9).blk t).view.read (Elt Ideal) (attnRecip (V m c main_arg0) (V m c main_arg1) (V m c main_arg2) (V m c main_arg3) (V m c main_arg4) (V m c main_arg5) (V m c main_arg6) (V m c main_arg7) (V m c main_arg8)) := by
  have hf := idx_facts t
  funext y
  obtain ⟨sl, tt, rfl⟩ : ∃ (sl : Fin 512) (tt : Fin 2048), y = ix3 0 sl tt :=
    ⟨y 1, y 2, funext fun a => by
      match a with
      | ⟨0, _⟩ => exact Fin.ext (by have h1 : (y 0).val < 1 := (y 0).isLt; show (y 0).val = 0; omega)
      | ⟨1, _⟩ => rfl
      | ⟨2, _⟩ => rfl⟩
  have hemb : ((cfg0.win 9).blk t).view.emb (ix3 0 sl tt) = ix3 ⟨t.val / 4, batch_lt t⟩ ⟨512 * (t.val % 4) + sl.val, row_lt t sl⟩ tt := by
    funext a; apply Fin.ext
    match a with
    | ⟨0, _⟩ => show win0_9.index t (0 : Fin 3) * 1 + 1 * 0 = t.val / 4; omega
    | ⟨1, _⟩ => show win0_9.index t (1 : Fin 3) * 512 + 1 * sl.val = 512 * (t.val % 4) + sl.val; omega
    | ⟨2, _⟩ => show win0_9.index t (2 : Fin 3) * 2048 + 1 * tt.val = tt.val; omega
  show (dats m 0 c).flushed 9 t (ix3 0 sl tt) = attnRecip (V m c main_arg0) (V m c main_arg1) (V m c main_arg2) (V m c main_arg3) (V m c main_arg4) (V m c main_arg5) (V m c main_arg6) (V m c main_arg7) (V m c main_arg8) (((cfg0.win 9).blk t).view.emb (ix3 0 sl tt))
  rw [hemb]
  by_cases h0 : t.val % 4 = 0
  · rw [Cert.KernelIdeal.Value.flushed9_A m c t h0]
    show out0_A_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) ((hcond0_0 t).mpr h0) (iblk m c 0 t) (iblk m c 1 t) (iblk m c 2 t) (iblk m c 3 t) (iblk m c 4 t) (iblk m c 5 t) (iblk m c 6 t) (iblk m c 7 t) (iblk m c 8 t) (ix3 0 sl tt) = _
    refine (congrFun (out_A (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) ((hcond0_0 t).mpr h0) (iblk m c 0 t) (iblk m c 1 t) (iblk m c 2 t) (iblk m c 3 t) (iblk m c 4 t) (iblk m c 5 t) (iblk m c 6 t) (iblk m c 7 t) (iblk m c 8 t)) (ix3 0 sl tt)).trans ?_
    exact tail_apply m c t _ (fun r d => keysA_apply m c t r d) sl tt
  · rw [Cert.KernelIdeal.Value.flushed9_B m c t h0]
    show out0_B_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) (fun h => h0 ((hcond0_0 t).mp h)) (iblk m c 0 t) (iblk m c 1 t) (iblk m c 2 t) (iblk m c 3 t) (iblk m c 4 t) (iblk m c 5 t) (iblk m c 6 t) (iblk m c 7 t) (iblk m c 8 t) (outsAt0 m c (t.val - 1) (Nat.lt_of_le_of_lt (Nat.sub_le _ _) t.isLt)).2 (ix3 0 sl tt) = _
    refine (congrFun (out_B (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) (fun h => h0 ((hcond0_0 t).mp h)) (iblk m c 0 t) (iblk m c 1 t) (iblk m c 2 t) (iblk m c 3 t) (iblk m c 4 t) (iblk m c 5 t) (iblk m c 6 t) (iblk m c 7 t) (iblk m c 8 t) (outsAt0 m c (t.val - 1) (Nat.lt_of_le_of_lt (Nat.sub_le _ _) t.isLt)).2) (ix3 0 sl tt)).trans ?_
    exact tail_apply m c t _ (fun r d => keysB_apply m c t h0 r d) sl tt

/-- An index of the result is in point `t`'s block iff each coordinate is in the block's range on its axis. -/
theorem mem_blk (t : Fin cfg0.N) (i : S8x2048x2048.Idx) :
    i ∈ ((cfg0.win 9).blk t).view.set ↔ ∀ a : Fin 3, win0_9.index t a * S1x512x2048.size a ≤ (i a).val ∧ (i a).val < win0_9.index t a * S1x512x2048.size a + S1x512x2048.size a := by
  show i ∈ ((View.whole main_v0).slice (win0_9.rect t)).set ↔ _
  rw [View.set_slice_whole, Rect.mem_set_unit]
  exact Iff.rfl

/-- Every index `(b, s, u)` of the result is in the block of point `4·b + s / 512`. -/
theorem cover (i : S8x2048x2048.Idx) : ∃ t : Fin cfg0.N, (cfg0.win 9).flush t = true ∧ i ∈ ((cfg0.win 9).blk t).view.set := by
  have hN : cfg0.N = 32 := N_0
  have hb : (i 0).val < 8 := (i 0).isLt
  have hs : (i 1).val < 2048 := (i 1).isLt
  have hu : (i 2).val < 2048 := (i 2).isLt
  have hlt : 4 * (i 0).val + (i 1).val / 512 < cfg0.N := by omega
  refine ⟨⟨4 * (i 0).val + (i 1).val / 512, hlt⟩, flush0_9 _, ?_⟩
  rw [mem_blk]
  have hf := idx_facts ⟨4 * (i 0).val + (i 1).val / 512, hlt⟩
  have htv : (⟨4 * (i 0).val + (i 1).val / 512, hlt⟩ : Fin cfg0.N).val = 4 * (i 0).val + (i 1).val / 512 := rfl
  intro a
  match a with
  | ⟨0, _⟩ => show win0_9.index _ (0 : Fin 3) * 1 ≤ (i 0).val ∧ (i 0).val < win0_9.index _ (0 : Fin 3) * 1 + 1; omega
  | ⟨1, _⟩ => show win0_9.index _ (1 : Fin 3) * 512 ≤ (i 1).val ∧ (i 1).val < win0_9.index _ (1 : Fin 3) * 512 + 512; omega
  | ⟨2, _⟩ => show win0_9.index _ (2 : Fin 3) * 2048 ≤ (i 2).val ∧ (i 2).val < win0_9.index _ (2 : Fin 3) * 2048 + 2048; omega

/-- THE RESULT ARRAY after the run: the attention map of the argument arrays. -/
theorem final (c : Dev nD) : (dats m 0 c).arrAt 9 cfg0.N = attnRecip (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) :=
  (dats m 0 c).arrAt_eq_of_cover 9 (attnRecip (V m c main_arg0) (V m c main_arg1) (V m c main_arg2) (V m c main_arg3) (V m c main_arg4) (V m c main_arg5) (V m c main_arg6) (V m c main_arg7) (V m c main_arg8)) (fun t _ => flushed_eq m c t) cover

/-- The kernel's run with its result array named: the attention map of the arguments, which end unchanged. -/
theorem run : θ_run defs (onTc (τ := τ) (main (F := Ideal))) ⟨m, fun _ => 0, ρ⟩ fun r => ∀ c : Dev nD,
      r.2.mem ((c : Thread nD τ).loc main_v0) = attnRecip (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8) :=
  (θ_run defs _ _).mono (fun r h c => ⟨(h c).1.trans (final m c), (h c).2⟩) (Cert.KernelIdeal.Value.run_blocks m ρ)

end Cert.Attn.Ker

end
-- ==== Proof.lean ====
/-
  An attention map: two perceptrons of the input rows give queries and keys, each row of query–key products is
  normalised by its own maximum, and a softmax is applied along the row.

  The kernel and the reference differ in the ORDER OF THE TWO QUOTIENTS. The kernel forms the reciprocal of a row's
  maximum (and later of the row's sum of exponentials) once and multiplies every entry by it; the reference divides
  every entry. On the extended reals a quotient by zero is not the product with a reciprocal, so the two agree only
  where no row of products has maximum zero — which the precondition states: there the reference's own quotient
  `0 / 0` is undefined. With that and the inputs real, every row maximum is a nonzero real and every sum of
  exponentials a positive real, and both quotients are products with an inverse (RowLaw, Spec).

  The kernel's side: the block each grid point writes back is the specification's block (the keys of a batch are
  stored at the batch's first point and carried in a scratch to its other three: KScratch), and the blocks fill the
  result (KFinal). The reference's side: its stages read at an index are the specification's functions (RefRead).
  The precondition gives the real inputs and the nonzero maxima (PreDecode). The idealization rewrote nothing, so
  the kernel's printed text read at the extended reals is its idealization.
-/
import proofs.«403823_j68401649156342_3_alg».proof.Defs
import proofs.«403823_j68401649156342_3_alg».proof.Proof.Gen.Kernel
import proofs.«403823_j68401649156342_3_alg».proof.Proof.Gen.Kernel.Skeleton
import proofs.«403823_j68401649156342_3_alg».proof.Proof.Gen.Kernel.Launch
import proofs.«403823_j68401649156342_3_alg».proof.Proof.Gen.Kernel.Points
import proofs.«403823_j68401649156342_3_alg».proof.Proof.Gen.Kernel.Frame
import proofs.«403823_j68401649156342_3_alg».proof.Proof.Gen.KernelIdeal
import proofs.«403823_j68401649156342_3_alg».proof.Proof.Gen.KernelIdeal.Skeleton
import proofs.«403823_j68401649156342_3_alg».proof.Proof.Gen.KernelIdeal.Launch
import proofs.«403823_j68401649156342_3_alg».proof.Proof.Gen.KernelIdeal.Points
import proofs.«403823_j68401649156342_3_alg».proof.Proof.Gen.KernelIdeal.Frame
import proofs.«403823_j68401649156342_3_alg».proof.Proof.Gen.KernelIdeal.Value
import proofs.«403823_j68401649156342_3_alg».proof.Proof.Gen.ReferenceIdeal
import proofs.«403823_j68401649156342_3_alg».proof.Proof.Gen.ReferenceIdeal.Run
import proofs.«403823_j68401649156342_3_alg».proof.Proof.Gen.ReferenceIdeal.Read
import proofs.«403823_j68401649156342_3_alg».proof.Proof.Gen.Pre_finite_inputs
import proofs.«403823_j68401649156342_3_alg».proof.Proof.Spec
import proofs.«403823_j68401649156342_3_alg».proof.Proof.RefRead
import proofs.«403823_j68401649156342_3_alg».proof.Proof.PreDecode
import proofs.«403823_j68401649156342_3_alg».proof.Proof.KFinal
import Idealize.ShloMosaic.Adequacy
import Idealize.ShloMosaic.Init

noncomputable section

namespace Cert.Proof

open Idealize.ShloMosaic Idealize.ShloMosaic.TcCoe Idealize.SL.Sem Cert.Attn

/-- The kernel as printed runs and keeps its arguments. -/
theorem frame_kernel : Cert.frame_Kernel := fun m ρ _ => Cert.Kernel.Gen.frame m ρ

/-- So does its reading at the extended reals. -/
theorem frame_kernelIdeal : Cert.frame_KernelIdeal := fun m ρ _ => Cert.KernelIdeal.Gen.frame m ρ

/-- The reference runs and keeps its arguments: its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories agreeing on the arguments both programs end with the attention map: the kernel with the
    reciprocals taken once per row, the reference with the quotients entry by entry — one map where the inputs are
    real and no row of products has maximum zero. -/
theorem algebraic : Cert.algebraic_KernelIdeal_ReferenceIdeal := by
  intro m ρ m' ρ' hpre hagree
  refine ⟨fun c => attnRecip (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)), Cert.Attn.Ker.run m ρ, ?_⟩
  refine (θ_run Cert.ReferenceIdeal.defs _ _).mono (fun r h c => ⟨?_, (h c).2⟩)
    (Cert.ReferenceIdeal.Value.run (F := Ideal) m' ρ')
  rw [(h c).1, Cert.ReferenceIdeal.Read.val_main_v35_eq, Cert.Attn.Ref.result_read]
  obtain ⟨a0, a1, a2, a3, a4, a5, a6, a7, a8⟩ := hagree c
  rw [a0, a1, a2, a3, a4, a5, a6, a7, a8]
  obtain ⟨r0, r1, r2, r3, r4, r5, r6, r7, r8⟩ := Cert.Attn.Pre.inputs_real _ _ _ _ _ _ _ _ _ (hpre c)
  exact (attn_eq _ _ _ _ _ _ _ _ _ r0 r1 r2 r3 r4 r5 r6 r7 r8
    (fun b s => Cert.Attn.Pre.rowmax_ne_zero _ _ _ _ _ _ _ _ _ (hpre c) b s)).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
